-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel

variable [Facts]

def fn {F : FTy → Type} [FloatOps F] (main_arg0 : FVec F S128x1024x256 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  main_v3
-- ==== Kernel.lean ====
abbrev S128x1024x256 : Shape := ⟨3, ![128, 1024, 256]⟩
abbrev S4x1024x256 : Shape := ⟨3, ![4, 1024, 256]⟩
abbrev S4x512x2x1x256 : Shape := ⟨5, ![4, 512, 2, 1, 256]⟩
abbrev S4x512x1x1x256 : Shape := ⟨5, ![4, 512, 1, 1, 256]⟩
abbrev S4x512x1x256 : Shape := ⟨4, ![4, 512, 1, 256]⟩
abbrev S4x256x2x2x256 : Shape := ⟨5, ![4, 256, 2, 2, 256]⟩
abbrev S4x256x1x2x256 : Shape := ⟨5, ![4, 256, 1, 2, 256]⟩
abbrev S4x256x2x256 : Shape := ⟨4, ![4, 256, 2, 256]⟩
abbrev S4x128x2x4x256 : Shape := ⟨5, ![4, 128, 2, 4, 256]⟩
abbrev S4x128x1x4x256 : Shape := ⟨5, ![4, 128, 1, 4, 256]⟩
abbrev S4x128x4x256 : Shape := ⟨4, ![4, 128, 4, 256]⟩
abbrev S4x64x2x8x256 : Shape := ⟨5, ![4, 64, 2, 8, 256]⟩
abbrev S4x64x1x8x256 : Shape := ⟨5, ![4, 64, 1, 8, 256]⟩
abbrev S4x64x8x256 : Shape := ⟨4, ![4, 64, 8, 256]⟩
abbrev S4x32x2x16x256 : Shape := ⟨5, ![4, 32, 2, 16, 256]⟩
abbrev S4x32x1x16x256 : Shape := ⟨5, ![4, 32, 1, 16, 256]⟩
abbrev S4x32x16x256 : Shape := ⟨4, ![4, 32, 16, 256]⟩
abbrev S4x16x2x32x256 : Shape := ⟨5, ![4, 16, 2, 32, 256]⟩
abbrev S4x16x1x32x256 : Shape := ⟨5, ![4, 16, 1, 32, 256]⟩
abbrev S4x16x32x256 : Shape := ⟨4, ![4, 16, 32, 256]⟩
abbrev S4x8x2x64x256 : Shape := ⟨5, ![4, 8, 2, 64, 256]⟩
abbrev S4x8x1x64x256 : Shape := ⟨5, ![4, 8, 1, 64, 256]⟩
abbrev S4x8x64x256 : Shape := ⟨4, ![4, 8, 64, 256]⟩
abbrev S4x4x2x128x256 : Shape := ⟨5, ![4, 4, 2, 128, 256]⟩
abbrev S4x4x1x128x256 : Shape := ⟨5, ![4, 4, 1, 128, 256]⟩
abbrev S4x4x128x256 : Shape := ⟨4, ![4, 4, 128, 256]⟩
abbrev S4x2x2x256x256 : Shape := ⟨5, ![4, 2, 2, 256, 256]⟩
abbrev S4x2x1x256x256 : Shape := ⟨5, ![4, 2, 1, 256, 256]⟩
abbrev S4x2x256x256 : Shape := ⟨4, ![4, 2, 256, 256]⟩
abbrev S4x1x2x512x256 : Shape := ⟨5, ![4, 1, 2, 512, 256]⟩
abbrev S4x1x1x512x256 : Shape := ⟨5, ![4, 1, 1, 512, 256]⟩
abbrev S4x1x512x256 : Shape := ⟨4, ![4, 1, 512, 256]⟩

abbrev nBuf : Space → Nat
  | .hbm => 2
  | .vmem => 4
  | .smem => 0
  | _ => 0

abbrev bufTy : (tb : Table) → Fin (tcTables nBuf tb) → BufTy
  | .hbm, ⟨0, _⟩ => ⟨S128x1024x256, .f32⟩
  | .hbm, ⟨1, _⟩ => ⟨S128x1024x256, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x256, .f32⟩
  | .local _ .vmem, ⟨3, _⟩ => ⟨S4x1024x256, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x512x2x1x256 : S4x1024x256.ShapeCasts S4x512x2x1x256
  slices_S4x512x2x1x256_o0_0_0_0_0_S4x512x1x1x256 : S4x512x2x1x256.Slices ![0, 0, 0, 0, 0] S4x512x1x1x256
  shapeCasts_S4x512x1x1x256_S4x512x1x256 : S4x512x1x1x256.ShapeCasts S4x512x1x256
  slices_S4x512x2x1x256_o0_0_1_0_0_S4x512x1x1x256 : S4x512x2x1x256.Slices ![0, 0, 1, 0, 0] S4x512x1x1x256
  shapeCasts_S4x512x1x256_S4x512x1x1x256 : S4x512x1x256.ShapeCasts S4x512x1x1x256
  concatenates_S4x512x1x1x256_S4x512x1x1x256_S4x512x2x1x256_d2 : Shape.Concatenates [S4x512x1x1x256, S4x512x1x1x256] S4x512x2x1x256 2
  shapeCasts_S4x512x2x1x256_S4x1024x256 : S4x512x2x1x256.ShapeCasts S4x1024x256
  shapeCasts_S4x1024x256_S4x256x2x2x256 : S4x1024x256.ShapeCasts S4x256x2x2x256
  slices_S4x256x2x2x256_o0_0_0_0_0_S4x256x1x2x256 : S4x256x2x2x256.Slices ![0, 0, 0, 0, 0] S4x256x1x2x256
  shapeCasts_S4x256x1x2x256_S4x256x2x256 : S4x256x1x2x256.ShapeCasts S4x256x2x256
  slices_S4x256x2x2x256_o0_0_1_0_0_S4x256x1x2x256 : S4x256x2x2x256.Slices ![0, 0, 1, 0, 0] S4x256x1x2x256
  shapeCasts_S4x256x2x256_S4x256x1x2x256 : S4x256x2x256.ShapeCasts S4x256x1x2x256
  concatenates_S4x256x1x2x256_S4x256x1x2x256_S4x256x2x2x256_d2 : Shape.Concatenates [S4x256x1x2x256, S4x256x1x2x256] S4x256x2x2x256 2
  shapeCasts_S4x256x2x2x256_S4x1024x256 : S4x256x2x2x256.ShapeCasts S4x1024x256
  shapeCasts_S4x1024x256_S4x128x2x4x256 : S4x1024x256.ShapeCasts S4x128x2x4x256
  slices_S4x128x2x4x256_o0_0_0_0_0_S4x128x1x4x256 : S4x128x2x4x256.Slices ![0, 0, 0, 0, 0] S4x128x1x4x256
  shapeCasts_S4x128x1x4x256_S4x128x4x256 : S4x128x1x4x256.ShapeCasts S4x128x4x256
  slices_S4x128x2x4x256_o0_0_1_0_0_S4x128x1x4x256 : S4x128x2x4x256.Slices ![0, 0, 1, 0, 0] S4x128x1x4x256
  shapeCasts_S4x128x4x256_S4x128x1x4x256 : S4x128x4x256.ShapeCasts S4x128x1x4x256
  concatenates_S4x128x1x4x256_S4x128x1x4x256_S4x128x2x4x256_d2 : Shape.Concatenates [S4x128x1x4x256, S4x128x1x4x256] S4x128x2x4x256 2
  shapeCasts_S4x128x2x4x256_S4x1024x256 : S4x128x2x4x256.ShapeCasts S4x1024x256
  shapeCasts_S4x1024x256_S4x64x2x8x256 : S4x1024x256.ShapeCasts S4x64x2x8x256
  slices_S4x64x2x8x256_o0_0_0_0_0_S4x64x1x8x256 : S4x64x2x8x256.Slices ![0, 0, 0, 0, 0] S4x64x1x8x256
  shapeCasts_S4x64x1x8x256_S4x64x8x256 : S4x64x1x8x256.ShapeCasts S4x64x8x256
  slices_S4x64x2x8x256_o0_0_1_0_0_S4x64x1x8x256 : S4x64x2x8x256.Slices ![0, 0, 1, 0, 0] S4x64x1x8x256
  shapeCasts_S4x64x8x256_S4x64x1x8x256 : S4x64x8x256.ShapeCasts S4x64x1x8x256
  concatenates_S4x64x1x8x256_S4x64x1x8x256_S4x64x2x8x256_d2 : Shape.Concatenates [S4x64x1x8x256, S4x64x1x8x256] S4x64x2x8x256 2
  shapeCasts_S4x64x2x8x256_S4x1024x256 : S4x64x2x8x256.ShapeCasts S4x1024x256
  shapeCasts_S4x1024x256_S4x32x2x16x256 : S4x1024x256.ShapeCasts S4x32x2x16x256
  slices_S4x32x2x16x256_o0_0_0_0_0_S4x32x1x16x256 : S4x32x2x16x256.Slices ![0, 0, 0, 0, 0] S4x32x1x16x256
  shapeCasts_S4x32x1x16x256_S4x32x16x256 : S4x32x1x16x256.ShapeCasts S4x32x16x256
  slices_S4x32x2x16x256_o0_0_1_0_0_S4x32x1x16x256 : S4x32x2x16x256.Slices ![0, 0, 1, 0, 0] S4x32x1x16x256
  shapeCasts_S4x32x16x256_S4x32x1x16x256 : S4x32x16x256.ShapeCasts S4x32x1x16x256
  concatenates_S4x32x1x16x256_S4x32x1x16x256_S4x32x2x16x256_d2 : Shape.Concatenates [S4x32x1x16x256, S4x32x1x16x256] S4x32x2x16x256 2
  shapeCasts_S4x32x2x16x256_S4x1024x256 : S4x32x2x16x256.ShapeCasts S4x1024x256
  shapeCasts_S4x1024x256_S4x16x2x32x256 : S4x1024x256.ShapeCasts S4x16x2x32x256
  slices_S4x16x2x32x256_o0_0_0_0_0_S4x16x1x32x256 : S4x16x2x32x256.Slices ![0, 0, 0, 0, 0] S4x16x1x32x256
  shapeCasts_S4x16x1x32x256_S4x16x32x256 : S4x16x1x32x256.ShapeCasts S4x16x32x256
  slices_S4x16x2x32x256_o0_0_1_0_0_S4x16x1x32x256 : S4x16x2x32x256.Slices ![0, 0, 1, 0, 0] S4x16x1x32x256
  shapeCasts_S4x16x32x256_S4x16x1x32x256 : S4x16x32x256.ShapeCasts S4x16x1x32x256
  concatenates_S4x16x1x32x256_S4x16x1x32x256_S4x16x2x32x256_d2 : Shape.Concatenates [S4x16x1x32x256, S4x16x1x32x256] S4x16x2x32x256 2
  shapeCasts_S4x16x2x32x256_S4x1024x256 : S4x16x2x32x256.ShapeCasts S4x1024x256
  shapeCasts_S4x1024x256_S4x8x2x64x256 : S4x1024x256.ShapeCasts S4x8x2x64x256
  slices_S4x8x2x64x256_o0_0_0_0_0_S4x8x1x64x256 : S4x8x2x64x256.Slices ![0, 0, 0, 0, 0] S4x8x1x64x256
  shapeCasts_S4x8x1x64x256_S4x8x64x256 : S4x8x1x64x256.ShapeCasts S4x8x64x256
  slices_S4x8x2x64x256_o0_0_1_0_0_S4x8x1x64x256 : S4x8x2x64x256.Slices ![0, 0, 1, 0, 0] S4x8x1x64x256
  shapeCasts_S4x8x64x256_S4x8x1x64x256 : S4x8x64x256.ShapeCasts S4x8x1x64x256
  concatenates_S4x8x1x64x256_S4x8x1x64x256_S4x8x2x64x256_d2 : Shape.Concatenates [S4x8x1x64x256, S4x8x1x64x256] S4x8x2x64x256 2
  shapeCasts_S4x8x2x64x256_S4x1024x256 : S4x8x2x64x256.ShapeCasts S4x1024x256
  shapeCasts_S4x1024x256_S4x4x2x128x256 : S4x1024x256.ShapeCasts S4x4x2x128x256
  slices_S4x4x2x128x256_o0_0_0_0_0_S4x4x1x128x256 : S4x4x2x128x256.Slices ![0, 0, 0, 0, 0] S4x4x1x128x256
  shapeCasts_S4x4x1x128x256_S4x4x128x256 : S4x4x1x128x256.ShapeCasts S4x4x128x256
  slices_S4x4x2x128x256_o0_0_1_0_0_S4x4x1x128x256 : S4x4x2x128x256.Slices ![0, 0, 1, 0, 0] S4x4x1x128x256
  shapeCasts_S4x4x128x256_S4x4x1x128x256 : S4x4x128x256.ShapeCasts S4x4x1x128x256
  concatenates_S4x4x1x128x256_S4x4x1x128x256_S4x4x2x128x256_d2 : Shape.Concatenates [S4x4x1x128x256, S4x4x1x128x256] S4x4x2x128x256 2
  shapeCasts_S4x4x2x128x256_S4x1024x256 : S4x4x2x128x256.ShapeCasts S4x1024x256
  shapeCasts_S4x1024x256_S4x2x2x256x256 : S4x1024x256.ShapeCasts S4x2x2x256x256
  slices_S4x2x2x256x256_o0_0_0_0_0_S4x2x1x256x256 : S4x2x2x256x256.Slices ![0, 0, 0, 0, 0] S4x2x1x256x256
  shapeCasts_S4x2x1x256x256_S4x2x256x256 : S4x2x1x256x256.ShapeCasts S4x2x256x256
  slices_S4x2x2x256x256_o0_0_1_0_0_S4x2x1x256x256 : S4x2x2x256x256.Slices ![0, 0, 1, 0, 0] S4x2x1x256x256
  shapeCasts_S4x2x256x256_S4x2x1x256x256 : S4x2x256x256.ShapeCasts S4x2x1x256x256
  concatenates_S4x2x1x256x256_S4x2x1x256x256_S4x2x2x256x256_d2 : Shape.Concatenates [S4x2x1x256x256, S4x2x1x256x256] S4x2x2x256x256 2
  shapeCasts_S4x2x2x256x256_S4x1024x256 : S4x2x2x256x256.ShapeCasts S4x1024x256
  shapeCasts_S4x1024x256_S4x1x2x512x256 : S4x1024x256.ShapeCasts S4x1x2x512x256
  slices_S4x1x2x512x256_o0_0_0_0_0_S4x1x1x512x256 : S4x1x2x512x256.Slices ![0, 0, 0, 0, 0] S4x1x1x512x256
  shapeCasts_S4x1x1x512x256_S4x1x512x256 : S4x1x1x512x256.ShapeCasts S4x1x512x256
  slices_S4x1x2x512x256_o0_0_1_0_0_S4x1x1x512x256 : S4x1x2x512x256.Slices ![0, 0, 1, 0, 0] S4x1x1x512x256
  shapeCasts_S4x1x512x256_S4x1x1x512x256 : S4x1x512x256.ShapeCasts S4x1x1x512x256
  concatenates_S4x1x1x512x256_S4x1x1x512x256_S4x1x2x512x256_d2 : Shape.Concatenates [S4x1x1x512x256, S4x1x1x512x256] S4x1x2x512x256 2
  shapeCasts_S4x1x2x512x256_S4x1024x256 : S4x1x2x512x256.ShapeCasts S4x1024x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S128x1024x256.size a
  hwx0_0 : ∀ i : grid0.Coords, EltTy.bits .f32 = 32 ∨ (Rect.block (s := S128x1024x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x256.size a ≤ S128x1024x256.size a
  hwx0_1 : ∀ i : grid0.Coords, EltTy.bits .f32 = 32 ∨ (Rect.block (s := S128x1024x256) S4x1024x256.size (cc0_transform_1 i) (hinb0_1 i)).WholeWords (EltTy.packing .f32)

variable [Facts₀]

abbrev win0_0 : Pipeline.Window sig grid0 :=
  Pipeline.Window.ofSpec (Memref.whole main_arg0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024x256 : Shape := ⟨3, ![128, 1024, 256]⟩
abbrev S128x512x2x1x256 : Shape := ⟨5, ![128, 512, 2, 1, 256]⟩
abbrev S128x512x1x1x256 : Shape := ⟨5, ![128, 512, 1, 1, 256]⟩
abbrev S128x512x1x256 : Shape := ⟨4, ![128, 512, 1, 256]⟩
abbrev S128x256x2x2x256 : Shape := ⟨5, ![128, 256, 2, 2, 256]⟩
abbrev S128x256x1x2x256 : Shape := ⟨5, ![128, 256, 1, 2, 256]⟩
abbrev S128x256x2x256 : Shape := ⟨4, ![128, 256, 2, 256]⟩
abbrev S128x128x2x4x256 : Shape := ⟨5, ![128, 128, 2, 4, 256]⟩
abbrev S128x128x1x4x256 : Shape := ⟨5, ![128, 128, 1, 4, 256]⟩
abbrev S128x128x4x256 : Shape := ⟨4, ![128, 128, 4, 256]⟩
abbrev S128x64x2x8x256 : Shape := ⟨5, ![128, 64, 2, 8, 256]⟩
abbrev S128x64x1x8x256 : Shape := ⟨5, ![128, 64, 1, 8, 256]⟩
abbrev S128x64x8x256 : Shape := ⟨4, ![128, 64, 8, 256]⟩
abbrev S128x32x2x16x256 : Shape := ⟨5, ![128, 32, 2, 16, 256]⟩
abbrev S128x32x1x16x256 : Shape := ⟨5, ![128, 32, 1, 16, 256]⟩
abbrev S128x32x16x256 : Shape := ⟨4, ![128, 32, 16, 256]⟩
abbrev S128x16x2x32x256 : Shape := ⟨5, ![128, 16, 2, 32, 256]⟩
abbrev S128x16x1x32x256 : Shape := ⟨5, ![128, 16, 1, 32, 256]⟩
abbrev S128x16x32x256 : Shape := ⟨4, ![128, 16, 32, 256]⟩
abbrev S128x8x2x64x256 : Shape := ⟨5, ![128, 8, 2, 64, 256]⟩
abbrev S128x8x1x64x256 : Shape := ⟨5, ![128, 8, 1, 64, 256]⟩
abbrev S128x8x64x256 : Shape := ⟨4, ![128, 8, 64, 256]⟩
abbrev S128x4x2x128x256 : Shape := ⟨5, ![128, 4, 2, 128, 256]⟩
abbrev S128x4x1x128x256 : Shape := ⟨5, ![128, 4, 1, 128, 256]⟩
abbrev S128x4x128x256 : Shape := ⟨4, ![128, 4, 128, 256]⟩
abbrev S128x2x2x256x256 : Shape := ⟨5, ![128, 2, 2, 256, 256]⟩
abbrev S128x2x1x256x256 : Shape := ⟨5, ![128, 2, 1, 256, 256]⟩
abbrev S128x2x256x256 : Shape := ⟨4, ![128, 2, 256, 256]⟩
abbrev S128x1x2x512x256 : Shape := ⟨5, ![128, 1, 2, 512, 256]⟩
abbrev S128x1x1x512x256 : Shape := ⟨5, ![128, 1, 1, 512, 256]⟩
abbrev S128x1x512x256 : Shape := ⟨4, ![128, 1, 512, 256]⟩

abbrev nBuf : Space → Nat
  | .hbm => 111
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S128x512x2x1x256, .f32⟩
  | .hbm, ⟨2, _⟩ => ⟨S128x512x1x1x256, .f32⟩
  | .hbm, ⟨3, _⟩ => ⟨S128x512x1x256, .f32⟩
  | .hbm, ⟨4, _⟩ => ⟨S128x512x1x1x256, .f32⟩
  | .hbm, ⟨5, _⟩ => ⟨S128x512x1x256, .f32⟩
  | .hbm, ⟨6, _⟩ => ⟨S128x512x1x256, .f32⟩
  | .hbm, ⟨7, _⟩ => ⟨S128x512x1x256, .f32⟩
  | .hbm, ⟨8, _⟩ => ⟨S128x512x1x1x256, .f32⟩
  | .hbm, ⟨9, _⟩ => ⟨S128x512x1x1x256, .f32⟩
  | .hbm, ⟨10, _⟩ => ⟨S128x512x2x1x256, .f32⟩
  | .hbm, ⟨11, _⟩ => ⟨S128x1024x256, .f32⟩
  | .hbm, ⟨12, _⟩ => ⟨S128x256x2x2x256, .f32⟩
  | .hbm, ⟨13, _⟩ => ⟨S128x256x1x2x256, .f32⟩
  | .hbm, ⟨14, _⟩ => ⟨S128x256x2x256, .f32⟩
  | .hbm, ⟨15, _⟩ => ⟨S128x256x1x2x256, .f32⟩
  | .hbm, ⟨16, _⟩ => ⟨S128x256x2x256, .f32⟩
  | .hbm, ⟨17, _⟩ => ⟨S128x256x2x256, .f32⟩
  | .hbm, ⟨18, _⟩ => ⟨S128x256x2x256, .f32⟩
  | .hbm, ⟨19, _⟩ => ⟨S128x256x1x2x256, .f32⟩
  | .hbm, ⟨20, _⟩ => ⟨S128x256x1x2x256, .f32⟩
  | .hbm, ⟨21, _⟩ => ⟨S128x256x2x2x256, .f32⟩
  | .hbm, ⟨22, _⟩ => ⟨S128x1024x256, .f32⟩
  | .hbm, ⟨23, _⟩ => ⟨S128x128x2x4x256, .f32⟩
  | .hbm, ⟨24, _⟩ => ⟨S128x128x1x4x256, .f32⟩
  | .hbm, ⟨25, _⟩ => ⟨S128x128x4x256, .f32⟩
  | .hbm, ⟨26, _⟩ => ⟨S128x128x1x4x256, .f32⟩
  | .hbm, ⟨27, _⟩ => ⟨S128x128x4x256, .f32⟩
  | .hbm, ⟨28, _⟩ => ⟨S128x128x4x256, .f32⟩
  | .hbm, ⟨29, _⟩ => ⟨S128x128x4x256, .f32⟩
  | .hbm, ⟨30, _⟩ => ⟨S128x128x1x4x256, .f32⟩
  | .hbm, ⟨31, _⟩ => ⟨S128x128x1x4x256, .f32⟩
  | .hbm, ⟨32, _⟩ => ⟨S128x128x2x4x256, .f32⟩
  | .hbm, ⟨33, _⟩ => ⟨S128x1024x256, .f32⟩
  | .hbm, ⟨34, _⟩ => ⟨S128x64x2x8x256, .f32⟩
  | .hbm, ⟨35, _⟩ => ⟨S128x64x1x8x256, .f32⟩
  | .hbm, ⟨36, _⟩ => ⟨S128x64x8x256, .f32⟩
  | .hbm, ⟨37, _⟩ => ⟨S128x64x1x8x256, .f32⟩
  | .hbm, ⟨38, _⟩ => ⟨S128x64x8x256, .f32⟩
  | .hbm, ⟨39, _⟩ => ⟨S128x64x8x256, .f32⟩
  | .hbm, ⟨40, _⟩ => ⟨S128x64x8x256, .f32⟩
  | .hbm, ⟨41, _⟩ => ⟨S128x64x1x8x256, .f32⟩
  | .hbm, ⟨42, _⟩ => ⟨S128x64x1x8x256, .f32⟩
  | .hbm, ⟨43, _⟩ => ⟨S128x64x2x8x256, .f32⟩
  | .hbm, ⟨44, _⟩ => ⟨S128x1024x256, .f32⟩
  | .hbm, ⟨45, _⟩ => ⟨S128x32x2x16x256, .f32⟩
  | .hbm, ⟨46, _⟩ => ⟨S128x32x1x16x256, .f32⟩
  | .hbm, ⟨47, _⟩ => ⟨S128x32x16x256, .f32⟩
  | .hbm, ⟨48, _⟩ => ⟨S128x32x1x16x256, .f32⟩
  | .hbm, ⟨49, _⟩ => ⟨S128x32x16x256, .f32⟩
  | .hbm, ⟨50, _⟩ => ⟨S128x32x16x256, .f32⟩
  | .hbm, ⟨51, _⟩ => ⟨S128x32x16x256, .f32⟩
  | .hbm, ⟨52, _⟩ => ⟨S128x32x1x16x256, .f32⟩
  | .hbm, ⟨53, _⟩ => ⟨S128x32x1x16x256, .f32⟩
  | .hbm, ⟨54, _⟩ => ⟨S128x32x2x16x256, .f32⟩
  | .hbm, ⟨55, _⟩ => ⟨S128x1024x256, .f32⟩
  | .hbm, ⟨56, _⟩ => ⟨S128x16x2x32x256, .f32⟩
  | .hbm, ⟨57, _⟩ => ⟨S128x16x1x32x256, .f32⟩
  | .hbm, ⟨58, _⟩ => ⟨S128x16x32x256, .f32⟩
  | .hbm, ⟨59, _⟩ => ⟨S128x16x1x32x256, .f32⟩
  | .hbm, ⟨60, _⟩ => ⟨S128x16x32x256, .f32⟩
  | .hbm, ⟨61, _⟩ => ⟨S128x16x32x256, .f32⟩
  | .hbm, ⟨62, _⟩ => ⟨S128x16x32x256, .f32⟩
  | .hbm, ⟨63, _⟩ => ⟨S128x16x1x32x256, .f32⟩
  | .hbm, ⟨64, _⟩ => ⟨S128x16x1x32x256, .f32⟩
  | .hbm, ⟨65, _⟩ => ⟨S128x16x2x32x256, .f32⟩
  | .hbm, ⟨66, _⟩ => ⟨S128x1024x256, .f32⟩
  | .hbm, ⟨67, _⟩ => ⟨S128x8x2x64x256, .f32⟩
  | .hbm, ⟨68, _⟩ => ⟨S128x8x1x64x256, .f32⟩
  | .hbm, ⟨69, _⟩ => ⟨S128x8x64x256, .f32⟩
  | .hbm, ⟨70, _⟩ => ⟨S128x8x1x64x256, .f32⟩
  | .hbm, ⟨71, _⟩ => ⟨S128x8x64x256, .f32⟩
  | .hbm, ⟨72, _⟩ => ⟨S128x8x64x256, .f32⟩
  | .hbm, ⟨73, _⟩ => ⟨S128x8x64x256, .f32⟩
  | .hbm, ⟨74, _⟩ => ⟨S128x8x1x64x256, .f32⟩
  | .hbm, ⟨75, _⟩ => ⟨S128x8x1x64x256, .f32⟩
  | .hbm, ⟨76, _⟩ => ⟨S128x8x2x64x256, .f32⟩
  | .hbm, ⟨77, _⟩ => ⟨S128x1024x256, .f32⟩
  | .hbm, ⟨78, _⟩ => ⟨S128x4x2x128x256, .f32⟩
  | .hbm, ⟨79, _⟩ => ⟨S128x4x1x128x256, .f32⟩
  | .hbm, ⟨80, _⟩ => ⟨S128x4x128x256, .f32⟩
  | .hbm, ⟨81, _⟩ => ⟨S128x4x1x128x256, .f32⟩
  | .hbm, ⟨82, _⟩ => ⟨S128x4x128x256, .f32⟩
  | .hbm, ⟨83, _⟩ => ⟨S128x4x128x256, .f32⟩
  | .hbm, ⟨84, _⟩ => ⟨S128x4x128x256, .f32⟩
  | .hbm, ⟨85, _⟩ => ⟨S128x4x1x128x256, .f32⟩
  | .hbm, ⟨86, _⟩ => ⟨S128x4x1x128x256, .f32⟩
  | .hbm, ⟨87, _⟩ => ⟨S128x4x2x128x256, .f32⟩
  | .hbm, ⟨88, _⟩ => ⟨S128x1024x256, .f32⟩
  | .hbm, ⟨89, _⟩ => ⟨S128x2x2x256x256, .f32⟩
  | .hbm, ⟨90, _⟩ => ⟨S128x2x1x256x256, .f32⟩
  | .hbm, ⟨91, _⟩ => ⟨S128x2x256x256, .f32⟩
  | .hbm, ⟨92, _⟩ => ⟨S128x2x1x256x256, .f32⟩
  | .hbm, ⟨93, _⟩ => ⟨S128x2x256x256, .f32⟩
  | .hbm, ⟨94, _⟩ => ⟨S128x2x256x256, .f32⟩
  | .hbm, ⟨95, _⟩ => ⟨S128x2x256x256, .f32⟩
  | .hbm, ⟨96, _⟩ => ⟨S128x2x1x256x256, .f32⟩
  | .hbm, ⟨97, _⟩ => ⟨S128x2x1x256x256, .f32⟩
  | .hbm, ⟨98, _⟩ => ⟨S128x2x2x256x256, .f32⟩
  | .hbm, ⟨99, _⟩ => ⟨S128x1024x256, .f32⟩
  | .hbm, ⟨100, _⟩ => ⟨S128x1x2x512x256, .f32⟩
  | .hbm, ⟨101, _⟩ => ⟨S128x1x1x512x256, .f32⟩
  | .hbm, ⟨102, _⟩ => ⟨S128x1x512x256, .f32⟩
  | .hbm, ⟨103, _⟩ => ⟨S128x1x1x512x256, .f32⟩
  | .hbm, ⟨104, _⟩ => ⟨S128x1x512x256, .f32⟩
  | .hbm, ⟨105, _⟩ => ⟨S128x1x512x256, .f32⟩
  | .hbm, ⟨106, _⟩ => ⟨S128x1x512x256, .f32⟩
  | .hbm, ⟨107, _⟩ => ⟨S128x1x1x512x256, .f32⟩
  | .hbm, ⟨108, _⟩ => ⟨S128x1x1x512x256, .f32⟩
  | .hbm, ⟨109, _⟩ => ⟨S128x1x2x512x256, .f32⟩
  | .hbm, ⟨110, _⟩ => ⟨S128x1024x256, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩

abbrev nD : Nat := 1
abbrev τ : Topo := Topo.v7x

variable {F : FTy → Type} [FloatOps F]

class Facts₀ : Prop where
  shapeCasts_S128x1024x256_S128x512x2x1x256 : S128x1024x256.ShapeCasts S128x512x2x1x256
  slices_S128x512x2x1x256_S128x512x1x1x256_0_0_0_0_0 : S128x512x2x1x256.Slices ![0, 0, 0, 0, 0] S128x512x1x1x256
  shapeCasts_S128x512x1x1x256_S128x512x1x256 : S128x512x1x1x256.ShapeCasts S128x512x1x256
  slices_S128x512x2x1x256_S128x512x1x1x256_0_0_1_0_0 : S128x512x2x1x256.Slices ![0, 0, 1, 0, 0] S128x512x1x1x256
  bcast_S128x512x1x256_S128x512x1x1x256_0_1_3_4 : S128x512x1x256.BroadcastsInDim S128x512x1x1x256 (![0, 1, 3, 4] : Fin 4 → Fin S128x512x1x1x256.rank)
  concatenates_S128x512x1x1x256_S128x512x1x1x256_S128x512x2x1x256_d2 : Shape.Concatenates [S128x512x1x1x256, S128x512x1x1x256] S128x512x2x1x256 2
  shapeCasts_S128x512x2x1x256_S128x1024x256 : S128x512x2x1x256.ShapeCasts S128x1024x256
  shapeCasts_S128x1024x256_S128x256x2x2x256 : S128x1024x256.ShapeCasts S128x256x2x2x256
  slices_S128x256x2x2x256_S128x256x1x2x256_0_0_0_0_0 : S128x256x2x2x256.Slices ![0, 0, 0, 0, 0] S128x256x1x2x256
  shapeCasts_S128x256x1x2x256_S128x256x2x256 : S128x256x1x2x256.ShapeCasts S128x256x2x256
  slices_S128x256x2x2x256_S128x256x1x2x256_0_0_1_0_0 : S128x256x2x2x256.Slices ![0, 0, 1, 0, 0] S128x256x1x2x256
  bcast_S128x256x2x256_S128x256x1x2x256_0_1_3_4 : S128x256x2x256.BroadcastsInDim S128x256x1x2x256 (![0, 1, 3, 4] : Fin 4 → Fin S128x256x1x2x256.rank)
  concatenates_S128x256x1x2x256_S128x256x1x2x256_S128x256x2x2x256_d2 : Shape.Concatenates [S128x256x1x2x256, S128x256x1x2x256] S128x256x2x2x256 2
  shapeCasts_S128x256x2x2x256_S128x1024x256 : S128x256x2x2x256.ShapeCasts S128x1024x256
  shapeCasts_S128x1024x256_S128x128x2x4x256 : S128x1024x256.ShapeCasts S128x128x2x4x256
  slices_S128x128x2x4x256_S128x128x1x4x256_0_0_0_0_0 : S128x128x2x4x256.Slices ![0, 0, 0, 0, 0] S128x128x1x4x256
  shapeCasts_S128x128x1x4x256_S128x128x4x256 : S128x128x1x4x256.ShapeCasts S128x128x4x256
  slices_S128x128x2x4x256_S128x128x1x4x256_0_0_1_0_0 : S128x128x2x4x256.Slices ![0, 0, 1, 0, 0] S128x128x1x4x256
  bcast_S128x128x4x256_S128x128x1x4x256_0_1_3_4 : S128x128x4x256.BroadcastsInDim S128x128x1x4x256 (![0, 1, 3, 4] : Fin 4 → Fin S128x128x1x4x256.rank)
  concatenates_S128x128x1x4x256_S128x128x1x4x256_S128x128x2x4x256_d2 : Shape.Concatenates [S128x128x1x4x256, S128x128x1x4x256] S128x128x2x4x256 2
  shapeCasts_S128x128x2x4x256_S128x1024x256 : S128x128x2x4x256.ShapeCasts S128x1024x256
  shapeCasts_S128x1024x256_S128x64x2x8x256 : S128x1024x256.ShapeCasts S128x64x2x8x256
  slices_S128x64x2x8x256_S128x64x1x8x256_0_0_0_0_0 : S128x64x2x8x256.Slices ![0, 0, 0, 0, 0] S128x64x1x8x256
  shapeCasts_S128x64x1x8x256_S128x64x8x256 : S128x64x1x8x256.ShapeCasts S128x64x8x256
  slices_S128x64x2x8x256_S128x64x1x8x256_0_0_1_0_0 : S128x64x2x8x256.Slices ![0, 0, 1, 0, 0] S128x64x1x8x256
  bcast_S128x64x8x256_S128x64x1x8x256_0_1_3_4 : S128x64x8x256.BroadcastsInDim S128x64x1x8x256 (![0, 1, 3, 4] : Fin 4 → Fin S128x64x1x8x256.rank)
  concatenates_S128x64x1x8x256_S128x64x1x8x256_S128x64x2x8x256_d2 : Shape.Concatenates [S128x64x1x8x256, S128x64x1x8x256] S128x64x2x8x256 2
  shapeCasts_S128x64x2x8x256_S128x1024x256 : S128x64x2x8x256.ShapeCasts S128x1024x256
  shapeCasts_S128x1024x256_S128x32x2x16x256 : S128x1024x256.ShapeCasts S128x32x2x16x256
  slices_S128x32x2x16x256_S128x32x1x16x256_0_0_0_0_0 : S128x32x2x16x256.Slices ![0, 0, 0, 0, 0] S128x32x1x16x256
  shapeCasts_S128x32x1x16x256_S128x32x16x256 : S128x32x1x16x256.ShapeCasts S128x32x16x256
  slices_S128x32x2x16x256_S128x32x1x16x256_0_0_1_0_0 : S128x32x2x16x256.Slices ![0, 0, 1, 0, 0] S128x32x1x16x256
  bcast_S128x32x16x256_S128x32x1x16x256_0_1_3_4 : S128x32x16x256.BroadcastsInDim S128x32x1x16x256 (![0, 1, 3, 4] : Fin 4 → Fin S128x32x1x16x256.rank)
  concatenates_S128x32x1x16x256_S128x32x1x16x256_S128x32x2x16x256_d2 : Shape.Concatenates [S128x32x1x16x256, S128x32x1x16x256] S128x32x2x16x256 2
  shapeCasts_S128x32x2x16x256_S128x1024x256 : S128x32x2x16x256.ShapeCasts S128x1024x256
  shapeCasts_S128x1024x256_S128x16x2x32x256 : S128x1024x256.ShapeCasts S128x16x2x32x256
  slices_S128x16x2x32x256_S128x16x1x32x256_0_0_0_0_0 : S128x16x2x32x256.Slices ![0, 0, 0, 0, 0] S128x16x1x32x256
  shapeCasts_S128x16x1x32x256_S128x16x32x256 : S128x16x1x32x256.ShapeCasts S128x16x32x256
  slices_S128x16x2x32x256_S128x16x1x32x256_0_0_1_0_0 : S128x16x2x32x256.Slices ![0, 0, 1, 0, 0] S128x16x1x32x256
  bcast_S128x16x32x256_S128x16x1x32x256_0_1_3_4 : S128x16x32x256.BroadcastsInDim S128x16x1x32x256 (![0, 1, 3, 4] : Fin 4 → Fin S128x16x1x32x256.rank)
  concatenates_S128x16x1x32x256_S128x16x1x32x256_S128x16x2x32x256_d2 : Shape.Concatenates [S128x16x1x32x256, S128x16x1x32x256] S128x16x2x32x256 2
  shapeCasts_S128x16x2x32x256_S128x1024x256 : S128x16x2x32x256.ShapeCasts S128x1024x256
  shapeCasts_S128x1024x256_S128x8x2x64x256 : S128x1024x256.ShapeCasts S128x8x2x64x256
  slices_S128x8x2x64x256_S128x8x1x64x256_0_0_0_0_0 : S128x8x2x64x256.Slices ![0, 0, 0, 0, 0] S128x8x1x64x256
  shapeCasts_S128x8x1x64x256_S128x8x64x256 : S128x8x1x64x256.ShapeCasts S128x8x64x256
  slices_S128x8x2x64x256_S128x8x1x64x256_0_0_1_0_0 : S128x8x2x64x256.Slices ![0, 0, 1, 0, 0] S128x8x1x64x256
  bcast_S128x8x64x256_S128x8x1x64x256_0_1_3_4 : S128x8x64x256.BroadcastsInDim S128x8x1x64x256 (![0, 1, 3, 4] : Fin 4 → Fin S128x8x1x64x256.rank)
  concatenates_S128x8x1x64x256_S128x8x1x64x256_S128x8x2x64x256_d2 : Shape.Concatenates [S128x8x1x64x256, S128x8x1x64x256] S128x8x2x64x256 2
  shapeCasts_S128x8x2x64x256_S128x1024x256 : S128x8x2x64x256.ShapeCasts S128x1024x256
  shapeCasts_S128x1024x256_S128x4x2x128x256 : S128x1024x256.ShapeCasts S128x4x2x128x256
  slices_S128x4x2x128x256_S128x4x1x128x256_0_0_0_0_0 : S128x4x2x128x256.Slices ![0, 0, 0, 0, 0] S128x4x1x128x256
  shapeCasts_S128x4x1x128x256_S128x4x128x256 : S128x4x1x128x256.ShapeCasts S128x4x128x256
  slices_S128x4x2x128x256_S128x4x1x128x256_0_0_1_0_0 : S128x4x2x128x256.Slices ![0, 0, 1, 0, 0] S128x4x1x128x256
  bcast_S128x4x128x256_S128x4x1x128x256_0_1_3_4 : S128x4x128x256.BroadcastsInDim S128x4x1x128x256 (![0, 1, 3, 4] : Fin 4 → Fin S128x4x1x128x256.rank)
  concatenates_S128x4x1x128x256_S128x4x1x128x256_S128x4x2x128x256_d2 : Shape.Concatenates [S128x4x1x128x256, S128x4x1x128x256] S128x4x2x128x256 2
  shapeCasts_S128x4x2x128x256_S128x1024x256 : S128x4x2x128x256.ShapeCasts S128x1024x256
  shapeCasts_S128x1024x256_S128x2x2x256x256 : S128x1024x256.ShapeCasts S128x2x2x256x256
  slices_S128x2x2x256x256_S128x2x1x256x256_0_0_0_0_0 : S128x2x2x256x256.Slices ![0, 0, 0, 0, 0] S128x2x1x256x256
  shapeCasts_S128x2x1x256x256_S128x2x256x256 : S128x2x1x256x256.ShapeCasts S128x2x256x256
  slices_S128x2x2x256x256_S128x2x1x256x256_0_0_1_0_0 : S128x2x2x256x256.Slices ![0, 0, 1, 0, 0] S128x2x1x256x256
  bcast_S128x2x256x256_S128x2x1x256x256_0_1_3_4 : S128x2x256x256.BroadcastsInDim S128x2x1x256x256 (![0, 1, 3, 4] : Fin 4 → Fin S128x2x1x256x256.rank)
  concatenates_S128x2x1x256x256_S128x2x1x256x256_S128x2x2x256x256_d2 : Shape.Concatenates [S128x2x1x256x256, S128x2x1x256x256] S128x2x2x256x256 2
  shapeCasts_S128x2x2x256x256_S128x1024x256 : S128x2x2x256x256.ShapeCasts S128x1024x256
  shapeCasts_S128x1024x256_S128x1x2x512x256 : S128x1024x256.ShapeCasts S128x1x2x512x256
  slices_S128x1x2x512x256_S128x1x1x512x256_0_0_0_0_0 : S128x1x2x512x256.Slices ![0, 0, 0, 0, 0] S128x1x1x512x256
  shapeCasts_S128x1x1x512x256_S128x1x512x256 : S128x1x1x512x256.ShapeCasts S128x1x512x256
  slices_S128x1x2x512x256_S128x1x1x512x256_0_0_1_0_0 : S128x1x2x512x256.Slices ![0, 0, 1, 0, 0] S128x1x1x512x256
  bcast_S128x1x512x256_S128x1x1x512x256_0_1_3_4 : S128x1x512x256.BroadcastsInDim S128x1x1x512x256 (![0, 1, 3, 4] : Fin 4 → Fin S128x1x1x512x256.rank)
  concatenates_S128x1x1x512x256_S128x1x1x512x256_S128x1x2x512x256_d2 : Shape.Concatenates [S128x1x1x512x256, S128x1x1x512x256] S128x1x2x512x256 2
  shapeCasts_S128x1x2x512x256_S128x1024x256 : S128x1x2x512x256.ShapeCasts S128x1024x256

variable [Facts₀]

class Facts : Prop extends Facts₀ where

variable [Facts]
-- ==== Proof.Butterfly.lean ====
/-
  One butterfly stage of the Walsh–Hadamard recursion, as an index-by-index function.

  An array of shape [B, N, D] with N = J·2·H is viewed as [B, J, 2, H, D]; the two halves s = 0 and s = 1 of each group of
  2·H consecutive rows are added and subtracted, and the sum goes to half 0, the difference to half 1.  Read at the row
  n = (j·2 + s)·H + r this is
      out[b, n, d] = in[b, n, d] + in[b, n + H, d]     when ⌊n / H⌋ is even  (s = 0),
      out[b, n, d] = in[b, n − H, d] − in[b, n, d]     when ⌊n / H⌋ is odd   (s = 1).
  The stage touches the middle axis only: it is the one-dimensional map `bfly` applied to every (b, ·, d) line.
  Both programs spell the stage as reshape, two slices, add / subtract, a unit axis put back, a concatenation and a
  reshape; `stage_of_ops` reads that spelling at an index, for any way `ins` of putting the unit axis back that reads
  its operand at the same coordinates (a reshape in the kernel, a broadcast along the new axis in the reference).
-/
import Idealize.ShloMosaic.PureOps.Ideal
import Idealize.ShloMosaic.Lib.ValueIdx
import Idealize.ShloMosaic.Lib.Pipeline.Value
import Mathlib.Tactic.Ring

noncomputable section

namespace Cert.Butterfly

open Idealize.ShloMosaic Idealize.ShloMosaic.ValueIdx

variable {F : FTy → Type} [FloatOps F] {φ : FTy}

/-- The butterfly of half-width `H` on a line of `N` entries. -/
def bfly {N : ℕ} (H : ℕ) (f : Fin N → F φ) (n : Fin N) : F φ :=
  if n.val / H % 2 = 0 then FloatOps.addf (f n) (f ⟨(n.val + H) % N, Nat.mod_lt _ (Nat.zero_lt_of_lt n.isLt)⟩)
  else FloatOps.subf (f ⟨(n.val - H) % N, Nat.mod_lt _ (Nat.zero_lt_of_lt n.isLt)⟩) (f n)

/-- In the lower half of its group a row receives the sum with its partner `H` rows on. -/
theorem bfly_lower {N : ℕ} {H : ℕ} (f : Fin N → F φ) (n : Fin N) (h : n.val / H % 2 = 0) :
    bfly H f n = FloatOps.addf (f n) (f ⟨(n.val + H) % N, Nat.mod_lt _ (Nat.zero_lt_of_lt n.isLt)⟩) := if_pos h

/-- In the upper half it receives the partner `H` rows back less itself. -/
theorem bfly_upper {N : ℕ} {H : ℕ} (f : Fin N → F φ) (n : Fin N) (h : ¬ n.val / H % 2 = 0) :
    bfly H f n = FloatOps.subf (f ⟨(n.val - H) % N, Nat.mod_lt _ (Nat.zero_lt_of_lt n.isLt)⟩) (f n) := if_neg h

/-- The index in the same (b, ·, d) line at row `n'`. -/
abbrev at1 {B N D : ℕ} (i : (⟨3, ![B, N, D]⟩ : Shape).Idx) (n' : Fin N) : (⟨3, ![B, N, D]⟩ : Shape).Idx :=
  ix3 (n0 := B) (n1 := N) (n2 := D) (i 0) n' (i 2)

theorem at1_self {B N D : ℕ} (i : (⟨3, ![B, N, D]⟩ : Shape).Idx) : at1 i (i 1) = i := (eq_ix3 i).symm

/-- The stage on an array [B, N, D]: the butterfly along the middle axis, every line by itself. -/
def stage (B N D H : ℕ) (v : FVec F ⟨3, ![B, N, D]⟩ φ) : FVec F ⟨3, ![B, N, D]⟩ φ :=
  fun i => bfly H (fun n' => v (at1 i n')) (i 1)

section ops

variable {B J H D N : ℕ}

/-- Row n of a line of J·2·H rows, in the coordinates (j, s, r) of the view [J, 2, H]. -/
theorem row_split (hH : 0 < H) (n : ℕ) : n = (n / H / 2 * 2 + n / H % 2) * H + n % H := by
  have h1 := Nat.div_add_mod n H
  have h2 : n / H / 2 * 2 + n / H % 2 = n / H := by omega
  rw [h2, Nat.mul_comm]; exact h1.symm

theorem group_lt (hN : N = J * 2 * H) (hH : 0 < H) {n : ℕ} (hn : n < N) : n / H / 2 < J := by
  have h : n / H < J * 2 := by rw [Nat.div_lt_iff_lt_mul hH, ← hN]; exact hn
  omega

/-- The position of (b, j, s, r, d) in [B, J, 2, H, D] is the position of (b, (j·2 + s)·H + r, d) in [B, J·2·H, D]. -/
theorem pos5_eq (b j s r d : ℕ) : ((((b * J + j) * 2 + s) * H + r) * D + d) = ((b * (J * 2 * H) + ((j * 2 + s) * H + r)) * D + d) := by
  ring

/-- The stage as both programs spell it, read at an index: the array viewed [B, J, 2, H, D], its halves s = 0 and s = 1
    taken out and viewed [B, J, H, D], their sum and difference given the unit axis back by `ins`, concatenated along
    the axis of s and viewed [B, N, D] again. -/
theorem stage_of_ops (hN : N = J * 2 * H) (hH : 0 < H)
    (ins : FVec F ⟨4, ![B, J, H, D]⟩ φ → FVec F ⟨5, ![B, J, 1, H, D]⟩ φ)
    (hins : ∀ (Y : FVec F ⟨4, ![B, J, H, D]⟩ φ) (b : Fin B) (j : Fin J) (z : Fin 1) (r : Fin H) (d : Fin D),
      ins Y (ix5 b j z r d) = Y (ix4 b j r d))
    (h1 : (⟨3, ![B, N, D]⟩ : Shape).ShapeCasts ⟨5, ![B, J, 2, H, D]⟩)
    (h2 : (⟨5, ![B, J, 2, H, D]⟩ : Shape).Slices ![0, 0, 0, 0, 0] ⟨5, ![B, J, 1, H, D]⟩)
    (h3 : (⟨5, ![B, J, 1, H, D]⟩ : Shape).ShapeCasts ⟨4, ![B, J, H, D]⟩)
    (h4 : (⟨5, ![B, J, 2, H, D]⟩ : Shape).Slices ![0, 0, 1, 0, 0] ⟨5, ![B, J, 1, H, D]⟩)
    (h6 : Shape.Concatenates [(⟨5, ![B, J, 1, H, D]⟩ : Shape), ⟨5, ![B, J, 1, H, D]⟩] ⟨5, ![B, J, 2, H, D]⟩ 2)
    (h7 : (⟨5, ![B, J, 2, H, D]⟩ : Shape).ShapeCasts ⟨3, ![B, N, D]⟩)
    (v : FVec F ⟨3, ![B, N, D]⟩ φ) :
    shapeCast ⟨3, ![B, N, D]⟩
      (concatenate ⟨5, ![B, J, 2, H, D]⟩ 2
        [⟨⟨5, ![B, J, 1, H, D]⟩, ins (addf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3))⟩,
         ⟨⟨5, ![B, J, 1, H, D]⟩, ins (subf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3))⟩] h6) h7
      = stage B N D H v := by
  subst hN
  funext i
  obtain ⟨b, n, d, rfl⟩ : ∃ (b : Fin B) (n : Fin (J * 2 * H)) (d : Fin D), i = ix3 b n d := ⟨i 0, i 1, i 2, eq_ix3 i⟩
  -- the row's coordinates in the view [J, 2, H]
  have hsplit := row_split hH n.val
  have hj : n.val / H / 2 < J := group_lt rfl hH n.isLt
  have hr : n.val % H < H := Nat.mod_lt _ hH
  have hs : n.val / H % 2 < 2 := Nat.mod_lt _ (by norm_num)
  -- an entry of the five-axis view is the entry of the array at the row (j·2 + s)·H + r
  have view5 : ∀ (j : Fin J) (s : Fin 2) (r : Fin H) (hrow : (j.val * 2 + s.val) * H + r.val < J * 2 * H),
      shapeCast ⟨5, ![B, J, 2, H, D]⟩ v h1 (ix5 b j s r d) = v (ix3 b ⟨(j.val * 2 + s.val) * H + r.val, hrow⟩ d) := by
    intro j s r hrow
    refine shapeCast_apply v h1 _ _ ?_
    rw [Shape.rowMajor_val_five, Shape.rowMajor_val_three]
    exact (pos5_eq b.val j.val s.val r.val d.val).symm
  -- each half, viewed [B, J, H, D], at (b, j, r, d)
  have half : ∀ (s : Fin 2) (off : Fin 5 → ℕ) (hoff : off = ![0, 0, s.val, 0, 0])
      (hs : (⟨5, ![B, J, 2, H, D]⟩ : Shape).Slices off ⟨5, ![B, J, 1, H, D]⟩) (j : Fin J) (r : Fin H)
      (hrow : (j.val * 2 + s.val) * H + r.val < J * 2 * H),
      shapeCast ⟨4, ![B, J, H, D]⟩ (extractStridedSlice ⟨5, ![B, J, 1, H, D]⟩ off (shapeCast ⟨5, ![B, J, 2, H, D]⟩ v h1) hs) h3 (ix4 b j r d)
        = v (ix3 b ⟨(j.val * 2 + s.val) * H + r.val, hrow⟩ d) := by
    intro s off hoff hs j r hrow
    subst hoff
    refine (shapeCast_apply _ h3 (ix4 b j r d) (ix5 b j (⟨0, Nat.one_pos⟩ : Fin 1) r d) ?_).trans ?_
    · rw [Shape.rowMajor_val_five, Shape.rowMajor_val_four]
      show ((((b.val * J + j.val) * 1 + 0) * H + r.val) * D + d.val) = (((b.val * J + j.val) * H + r.val) * D + d.val)
      rw [Nat.mul_one, Nat.add_zero]
    · refine (extractStridedSlice_apply _ _ hs _ (ix5 b j s r d) ?_).trans (view5 j s r hrow)
      intro a
      match a with
      | ⟨0, _⟩ => exact (Nat.zero_add _).symm
      | ⟨1, _⟩ => exact (Nat.zero_add _).symm
      | ⟨2, _⟩ => exact (Nat.add_zero _).symm
      | ⟨3, _⟩ => exact (Nat.zero_add _).symm
      | ⟨4, _⟩ => exact (Nat.zero_add _).symm
  -- the result, viewed [B, N, D], at (b, n, d) is the concatenation at (b, j, s, r, d)
  refine (shapeCast_apply _ h7 (ix3 b n d) (ix5 b ⟨n.val / H / 2, hj⟩ ⟨n.val / H % 2, hs⟩ ⟨n.val % H, hr⟩ d) ?_).trans ?_
  · rw [Shape.rowMajor_val_five, Shape.rowMajor_val_three]
    show ((((b.val * J + n.val / H / 2) * 2 + n.val / H % 2) * H + n.val % H) * D + d.val) = ((b.val * (J * 2 * H) + n.val) * D + d.val)
    rw [pos5_eq, ← hsplit]
  show _ = bfly H (fun n' => v (ix3 b n' d)) n
  by_cases hpar : n.val / H % 2 = 0
  · -- the lower half: the sum
    rw [bfly_lower _ _ hpar]
    have hrow0 : (n.val / H / 2 * 2 + 0) * H + n.val % H < J * 2 * H := by
      have := n.isLt; rw [hpar] at hsplit; omega
    have hrow1 : (n.val / H / 2 * 2 + 1) * H + n.val % H < J * 2 * H := by
      have h2 : (n.val / H / 2 * 2 + 1) * H + n.val % H < (n.val / H / 2 * 2 + 2) * H := by
        have : (n.val / H / 2 * 2 + 2) * H = (n.val / H / 2 * 2 + 1) * H + H := by ring
        omega
      have h3 : (n.val / H / 2 * 2 + 2) * H ≤ J * 2 * H := Nat.mul_le_mul_right H (by omega)
      omega
    refine (concatenate_pair_apply_left (t := ⟨5, ![B, J, 2, H, D]⟩) (s₁ := ⟨5, ![B, J, 1, H, D]⟩) (s₂ := ⟨5, ![B, J, 1, H, D]⟩) 2 _ _ h6 _ rfl
      (ix5 b ⟨n.val / H / 2, hj⟩ (⟨0, Nat.one_pos⟩ : Fin 1) ⟨n.val % H, hr⟩ d) ?_).trans ?_
    · intro a
      match a with
      | ⟨0, _⟩ => rfl
      | ⟨1, _⟩ => rfl
      | ⟨2, _⟩ => exact hpar.symm
      | ⟨3, _⟩ => rfl
      | ⟨4, _⟩ => rfl
    rw [hins]
    refine (congrArg₂ FloatOps.addf (half (0 : Fin 2) _ rfl h2 ⟨n.val / H / 2, hj⟩ ⟨n.val % H, hr⟩ hrow0)
      (half (1 : Fin 2) _ rfl h4 ⟨n.val / H / 2, hj⟩ ⟨n.val % H, hr⟩ hrow1)).trans ?_
    have e0 : (n.val / H / 2 * 2 + 0) * H + n.val % H = n.val := by rw [hpar] at hsplit; exact hsplit.symm
    have e1 : (n.val / H / 2 * 2 + 1) * H + n.val % H = (n.val + H) % (J * 2 * H) := by
      have e : (n.val / H / 2 * 2 + 1) * H + n.val % H = n.val + H := by
        have : (n.val / H / 2 * 2 + 1) * H = (n.val / H / 2 * 2 + 0) * H + H := by ring
        omega
      have hlt : n.val + H < J * 2 * H := by rw [← e]; exact hrow1
      exact e.trans (Nat.mod_eq_of_lt hlt).symm
    exact congrArg₂ FloatOps.addf (congrArg v (congrArg (fun k => ix3 b k d) (Fin.ext e0)))
      (congrArg v (congrArg (fun k => ix3 b k d) (Fin.ext e1)))
  · -- the upper half: the difference
    have hpar1 : n.val / H % 2 = 1 := by omega
    rw [bfly_upper _ _ hpar]
    have hrow1 : (n.val / H / 2 * 2 + 1) * H + n.val % H < J * 2 * H := by
      have := n.isLt; rw [hpar1] at hsplit; omega
    have hrow0 : (n.val / H / 2 * 2 + 0) * H + n.val % H < J * 2 * H := by
      have : (n.val / H / 2 * 2 + 1) * H = (n.val / H / 2 * 2 + 0) * H + H := by ring
      omega
    refine (concatenate_pair_apply_right (t := ⟨5, ![B, J, 2, H, D]⟩) (s₁ := ⟨5, ![B, J, 1, H, D]⟩) (s₂ := ⟨5, ![B, J, 1, H, D]⟩) 2 _ _ h6 _ rfl rfl
      (ix5 b ⟨n.val / H / 2, hj⟩ (⟨0, Nat.one_pos⟩ : Fin 1) ⟨n.val % H, hr⟩ d) ?_ ?_).trans ?_
    · intro a ha
      match a, ha with
      | ⟨0, _⟩, _ => rfl
      | ⟨1, _⟩, _ => rfl
      | ⟨2, _⟩, ha => exact absurd rfl ha
      | ⟨3, _⟩, _ => rfl
      | ⟨4, _⟩, _ => rfl
    · show 0 + 1 = n.val / H % 2
      omega
    rw [hins]
    refine (congrArg₂ FloatOps.subf (half (0 : Fin 2) _ rfl h2 ⟨n.val / H / 2, hj⟩ ⟨n.val % H, hr⟩ hrow0)
      (half (1 : Fin 2) _ rfl h4 ⟨n.val / H / 2, hj⟩ ⟨n.val % H, hr⟩ hrow1)).trans ?_
    have e1 : (n.val / H / 2 * 2 + 1) * H + n.val % H = n.val := by rw [hpar1] at hsplit; exact hsplit.symm
    have e0 : (n.val / H / 2 * 2 + 0) * H + n.val % H = (n.val - H) % (J * 2 * H) := by
      have e : (n.val / H / 2 * 2 + 0) * H + n.val % H = n.val - H := by
        have : (n.val / H / 2 * 2 + 1) * H = (n.val / H / 2 * 2 + 0) * H + H := by ring
        omega
      have hlt : n.val - H < J * 2 * H := by have := n.isLt; omega
      exact e.trans (Nat.mod_eq_of_lt hlt).symm
    exact congrArg₂ FloatOps.subf (congrArg v (congrArg (fun k => ix3 b k d) (Fin.ext e0)))
      (congrArg v (congrArg (fun k => ix3 b k d) (Fin.ext e1)))

/-- The kernel's spelling: the unit axis is put back by a reshape. -/
theorem stage_reshape_form (hN : N = J * 2 * H) (hH : 0 < H)
    (h1 : (⟨3, ![B, N, D]⟩ : Shape).ShapeCasts ⟨5, ![B, J, 2, H, D]⟩)
    (h2 : (⟨5, ![B, J, 2, H, D]⟩ : Shape).Slices ![0, 0, 0, 0, 0] ⟨5, ![B, J, 1, H, D]⟩)
    (h3 : (⟨5, ![B, J, 1, H, D]⟩ : Shape).ShapeCasts ⟨4, ![B, J, H, D]⟩)
    (h4 : (⟨5, ![B, J, 2, H, D]⟩ : Shape).Slices ![0, 0, 1, 0, 0] ⟨5, ![B, J, 1, H, D]⟩)
    (h5 : (⟨4, ![B, J, H, D]⟩ : Shape).ShapeCasts ⟨5, ![B, J, 1, H, D]⟩)
    (h6 : Shape.Concatenates [(⟨5, ![B, J, 1, H, D]⟩ : Shape), ⟨5, ![B, J, 1, H, D]⟩] ⟨5, ![B, J, 2, H, D]⟩ 2)
    (h7 : (⟨5, ![B, J, 2, H, D]⟩ : Shape).ShapeCasts ⟨3, ![B, N, D]⟩)
    (v : FVec F ⟨3, ![B, N, D]⟩ φ) :
    shapeCast ⟨3, ![B, N, D]⟩
      (concatenate ⟨5, ![B, J, 2, H, D]⟩ 2
        [⟨⟨5, ![B, J, 1, H, D]⟩, shapeCast ⟨5, ![B, J, 1, H, D]⟩ (addf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3)) h5⟩,
         ⟨⟨5, ![B, J, 1, H, D]⟩, shapeCast ⟨5, ![B, J, 1, H, D]⟩ (subf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3)) h5⟩] h6) h7
      = stage B N D H v :=
  stage_of_ops hN hH (fun Y => shapeCast ⟨5, ![B, J, 1, H, D]⟩ Y h5)
    (fun Y b j z r d => by
      refine shapeCast_apply Y h5 _ _ ?_
      have hz : z.val = 0 := by have := z.isLt; omega
      rw [Shape.rowMajor_val_five, Shape.rowMajor_val_four]
      show (((b.val * J + j.val) * H + r.val) * D + d.val) = ((((b.val * J + j.val) * 1 + z.val) * H + r.val) * D + d.val)
      rw [hz, Nat.mul_one, Nat.add_zero])
    h1 h2 h3 h4 h6 h7 v

/-- The reference's spelling: the unit axis is put back by a broadcast along it. -/
theorem stage_broadcast_form (hN : N = J * 2 * H) (hH : 0 < H)
    (h1 : (⟨3, ![B, N, D]⟩ : Shape).ShapeCasts ⟨5, ![B, J, 2, H, D]⟩)
    (h2 : (⟨5, ![B, J, 2, H, D]⟩ : Shape).Slices ![0, 0, 0, 0, 0] ⟨5, ![B, J, 1, H, D]⟩)
    (h3 : (⟨5, ![B, J, 1, H, D]⟩ : Shape).ShapeCasts ⟨4, ![B, J, H, D]⟩)
    (h4 : (⟨5, ![B, J, 2, H, D]⟩ : Shape).Slices ![0, 0, 1, 0, 0] ⟨5, ![B, J, 1, H, D]⟩)
    (h5 : (⟨4, ![B, J, H, D]⟩ : Shape).BroadcastsInDim ⟨5, ![B, J, 1, H, D]⟩ (![0, 1, 3, 4] : Fin 4 → Fin 5))
    (h6 : Shape.Concatenates [(⟨5, ![B, J, 1, H, D]⟩ : Shape), ⟨5, ![B, J, 1, H, D]⟩] ⟨5, ![B, J, 2, H, D]⟩ 2)
    (h7 : (⟨5, ![B, J, 2, H, D]⟩ : Shape).ShapeCasts ⟨3, ![B, N, D]⟩)
    (v : FVec F ⟨3, ![B, N, D]⟩ φ) :
    shapeCast ⟨3, ![B, N, D]⟩
      (concatenate ⟨5, ![B, J, 2, H, D]⟩ 2
        [⟨⟨5, ![B, J, 1, H, D]⟩, broadcastInDim ⟨5, ![B, J, 1, H, D]⟩ ![0, 1, 3, 4] h5 (addf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3))⟩,
         ⟨⟨5, ![B, J, 1, H, D]⟩, broadcastInDim ⟨5, ![B, J, 1, H, D]⟩ ![0, 1, 3, 4] h5 (subf
            (shapeCast ⟨4, ![B, J, H, D]⟩ (extractStridedSlice ⟨5, ![B, J, 1, H, D]⟩ ![0, 0, 0, 0, 0] (shapeCast ⟨5, ![B, J, 2, H, D]⟩ v h1) h2) h3)
            (shapeCast ⟨4, ![B, J, H, D]⟩ (extractStridedSlice ⟨5, ![B, J, 1, H, D]⟩ ![0, 0, 1, 0, 0] (shapeCast ⟨5, ![B, J, 2, H, D]⟩ v h1) h4) h3))⟩] h6) h7
      = stage B N D H v := by
  have hins : ∀ (Y : FVec F ⟨4, ![B, J, H, D]⟩ φ) (b : Fin B) (j : Fin J) (z : Fin 1) (r : Fin H) (d : Fin D),
      broadcastInDim ⟨5, ![B, J, 1, H, D]⟩ ![0, 1, 3, 4] h5 Y (ix5 b j z r d) = Y (ix4 b j r d) := by
    intro Y b j z r d
    refine broadcastInDim_apply _ h5 Y _ (ix4 b j r d) ?_
    intro a
    match a with
    | ⟨0, _⟩ => show b.val = if B = 1 then 0 else b.val; split <;> omega
    | ⟨1, _⟩ => show j.val = if J = 1 then 0 else j.val; split <;> omega
    | ⟨2, _⟩ => show r.val = if H = 1 then 0 else r.val; split <;> omega
    | ⟨3, _⟩ => show d.val = if D = 1 then 0 else d.val; split <;> omega
  have key := stage_of_ops hN hH (fun Y => broadcastInDim ⟨5, ![B, J, 1, H, D]⟩ ![0, 1, 3, 4] h5 Y) hins h1 h2 h3 h4 h6 h7 v
  exact key

end ops

/-! ## The whole transform, and its blocks along the leading axis -/

/-- The unnormalised Walsh–Hadamard transform of the 1024 rows of every (b, ·, d) line: ten stages, H = 1, 2, …, 512. -/
def fwht (B : ℕ) (x : FVec F ⟨3, ![B, 1024, 256]⟩ φ) : FVec F ⟨3, ![B, 1024, 256]⟩ φ :=
  stage B 1024 256 512 (stage B 1024 256 256 (stage B 1024 256 128 (stage B 1024 256 64 (stage B 1024 256 32
    (stage B 1024 256 16 (stage B 1024 256 8 (stage B 1024 256 4 (stage B 1024 256 2 (stage B 1024 256 1 x)))))))))

/-- A stage acts line by line, so it commutes with any re-indexing `e` of the arrays that keeps rows and moves lines to
    lines: the stage of the re-indexed array is the re-indexed stage. -/
theorem stage_reindex {B B' N D : ℕ} (H : ℕ) (e : (⟨3, ![B, N, D]⟩ : Shape).Idx → (⟨3, ![B', N, D]⟩ : Shape).Idx)
    (hrow : ∀ y, (e y) 1 = y 1) (hline : ∀ y (n' : Fin N), e (at1 y n') = at1 (e y) n')
    (x : FVec F ⟨3, ![B', N, D]⟩ φ) :
    stage B N D H (fun y => x (e y)) = fun y => stage B' N D H x (e y) := by
  funext y
  show bfly H (fun n' => x (e (at1 y n'))) (y 1) = bfly H (fun n' => x (at1 (e y) n')) ((e y) 1)
  rw [hrow]
  simp only [hline]

/-- So does the whole transform: in particular the transform of a block of lines is the block of the transform. -/
theorem fwht_reindex {B B' : ℕ} (e : (⟨3, ![B, 1024, 256]⟩ : Shape).Idx → (⟨3, ![B', 1024, 256]⟩ : Shape).Idx)
    (hrow : ∀ y, (e y) 1 = y 1) (hline : ∀ y (n' : Fin 1024), e (at1 y n') = at1 (e y) n')
    (x : FVec F ⟨3, ![B', 1024, 256]⟩ φ) :
    fwht B (fun y => x (e y)) = fun y => fwht B' x (e y) := by
  unfold fwht
  simp only [stage_reindex _ e hrow hline]

end Cert.Butterfly

end
-- ==== Proof.KernelBody.lean ====
/-
  The kernel's body is the transform of its block.

  The body loads its block of shape [4, 1024, 256], runs the ten butterfly stages on it and stores the result whole.  The
  two halves of the body's arithmetic are five stages each; every stage is spelled as reshape, two slices, add / subtract,
  two reshapes that put the unit axis back, a concatenation and a reshape, which `stage_reshape_form` reads as the
  butterfly `stage`.  So the stored value is `fwht 4` of the loaded block.
-/
import proofs.«113838_j901943132182_1_alg».proof.Proof.Gen.KernelIdeal.Skeleton
import proofs.«113838_j901943132182_1_alg».proof.Proof.Butterfly

noncomputable section

namespace Cert.KernelIdeal.Body

open Idealize.ShloMosaic Cert.KernelIdeal Cert.KernelIdeal.Gen Cert.Butterfly

variable {F : FTy → Type} [FloatOps F]

/-- Stages H = 1, 2, 4, 8, 16. -/
theorem first_five (v0 : Vec F S4x1024x256 .f32) :
    k0_pay1 v0 = stage 4 1024 256 16 (stage 4 1024 256 8 (stage 4 1024 256 4 (stage 4 1024 256 2 (stage 4 1024 256 1 v0)))) := by
  unfold k0_pay1
  dsimp only
  rw [stage_reshape_form (B := 4) (N := 1024) (D := 256) (J := 512) (H := 1) (by norm_num) (by norm_num),
    stage_reshape_form (B := 4) (N := 1024) (D := 256) (J := 256) (H := 2) (by norm_num) (by norm_num),
    stage_reshape_form (B := 4) (N := 1024) (D := 256) (J := 128) (H := 4) (by norm_num) (by norm_num),
    stage_reshape_form (B := 4) (N := 1024) (D := 256) (J := 64) (H := 8) (by norm_num) (by norm_num),
    stage_reshape_form (B := 4) (N := 1024) (D := 256) (J := 32) (H := 16) (by norm_num) (by norm_num)]

/-- Stages H = 32, 64, 128, 256, 512. -/
theorem last_five (v55 : FVec F S4x1024x256 .f32) :
    k0_pay2 v55 = stage 4 1024 256 512 (stage 4 1024 256 256 (stage 4 1024 256 128 (stage 4 1024 256 64 (stage 4 1024 256 32 v55)))) := by
  unfold k0_pay2
  dsimp only
  rw [stage_reshape_form (B := 4) (N := 1024) (D := 256) (J := 16) (H := 32) (by norm_num) (by norm_num),
    stage_reshape_form (B := 4) (N := 1024) (D := 256) (J := 8) (H := 64) (by norm_num) (by norm_num),
    stage_reshape_form (B := 4) (N := 1024) (D := 256) (J := 4) (H := 128) (by norm_num) (by norm_num),
    stage_reshape_form (B := 4) (N := 1024) (D := 256) (J := 2) (H := 256) (by norm_num) (by norm_num),
    stage_reshape_form (B := 4) (N := 1024) (D := 256) (J := 1) (H := 512) (by norm_num) (by norm_num)]

/-- What the body stores is the transform of what it loaded. -/
theorem stored_eq (v0 : Vec F S4x1024x256 .f32) : k0_pay2 (k0_pay1 v0) = fwht 4 v0 := by
  rw [first_five, last_five]
  rfl

end Cert.KernelIdeal.Body

end
-- ==== Proof.BlockValue.lean ====
/-
  The kernel's value, read off its run: the result array ends at the transform of the argument array.

  Grid point t fetches rows 4t … 4t+3 of the leading axis (block index (t, 0, 0), block [4, 1024, 256]), the body stores
  the transform of that block (KernelBody.lean), and the block is written back to the same rows of the result.  The
  transform acts on each (b, ·, d) line by itself, so the transform of a block of lines is the block of the transform
  (`fwht_reindex` along the block's embedding, which keeps rows and moves lines to lines).  The 32 blocks tile the
  leading axis, so the whole result array is `fwht 128` of the argument.
-/
import proofs.«113838_j901943132182_1_alg».proof.Proof.Gen.KernelIdeal.Frame
import proofs.«113838_j901943132182_1_alg».proof.Proof.KernelBody
import Idealize.ShloMosaic.Lib.Pipeline.Value

noncomputable section

namespace Cert.KernelIdeal.BlockValue

open Cert.KernelIdeal Cert.KernelIdeal.Gen Idealize.ShloMosaic Idealize.ShloMosaic.TcCoe Idealize.SL.Sem Cert.Butterfly
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- The printed index maps over the grid: at point t both windows' block index is (t, 0, 0). -/
theorem index_facts : ∀ t : Fin cfg0.N,
    win0_0.index t (0 : Fin 3) = win0_1.index t (0 : Fin 3) ∧ win0_0.index t (1 : Fin 3) = 0 ∧ win0_0.index t (2 : Fin 3) = 0
    ∧ win0_1.index t (1 : Fin 3) = 0 ∧ win0_1.index t (2 : Fin 3) = 0 ∧ win0_1.index t (0 : Fin 3) = t.val :=
  (by decide +kernel : ∀ t : Fin grid0.N, _)

/-- What point t writes back is block t of the transform of the argument array. -/
theorem flushed_eq (c : Dev nD) (t : Fin cfg0.N) :
    (dats m 0 c).flushed 1 t = ((cfg0.win 1).blk t).view.read (Elt F) (fwht 128 (V m c main_arg0)) := by
  show (cfg0.win 1).cut (grid0.coords t) ((dats m 0 c).after 1 t) = _
  rw [after0_1]
  unfold out0_1
  rw [View.canon_unit_zero zero_offsets]
  simp only [View.ld_unit_zero (S := S4x1024x256) zero_offsets]
  rw [Body.stored_eq]
  obtain ⟨e0, e1, e2, e3, e4, e5⟩ := index_facts t
  -- the block's embedding keeps rows and moves lines to lines
  have hre := fwht_reindex (F := F) (φ := .f32) (B := 4) (B' := 128) (fun y => ((cfg0.win 0).blk t).view.emb y)
    (fun y => Fin.ext (by
      show win0_0.index t (1 : Fin 3) * 1024 + 1 * (y 1).val = (y 1).val
      rw [e1]; omega))
    (fun y n' => funext fun a => Fin.ext (by
      match a with
      | ⟨0, _⟩ => rfl
      | ⟨1, _⟩ => show win0_0.index t (1 : Fin 3) * 1024 + 1 * n'.val = n'.val; rw [e1]; omega
      | ⟨2, _⟩ => rfl))
    (V m c main_arg0)
  funext j
  refine (congrFun hre j).trans ?_
  show fwht 128 (V m c main_arg0) (((cfg0.win 0).blk t).view.emb j) = fwht 128 (V m c main_arg0) (((cfg0.win 1).blk t).view.emb j)
  refine congrArg _ (funext fun a => Fin.ext ?_)
  match a with
  | ⟨0, _⟩ => show win0_0.index t (0 : Fin 3) * 4 + 1 * (j 0).val = win0_1.index t (0 : Fin 3) * 4 + 1 * (j 0).val; rw [e0]
  | ⟨1, _⟩ => show win0_0.index t (1 : Fin 3) * 1024 + 1 * (j 1).val = win0_1.index t (1 : Fin 3) * 1024 + 1 * (j 1).val; rw [e1, e3]
  | ⟨2, _⟩ => show win0_0.index t (2 : Fin 3) * 256 + 1 * (j 2).val = win0_1.index t (2 : Fin 3) * 256 + 1 * (j 2).val; rw [e2, e4]

/-- An index of the result array is in point t's block iff each coordinate is in the block's range on its axis. -/
theorem mem_block (t : Fin cfg0.N) (i : S128x1024x256.Idx) :
    i ∈ ((cfg0.win 1).blk t).view.set ↔ ∀ a : Fin 3, win0_1.index t a * S4x1024x256.size a ≤ (i a).val ∧ (i a).val < win0_1.index t a * S4x1024x256.size a + S4x1024x256.size a := by
  show i ∈ ((View.whole main_v0).slice (win0_1.rect t)).set ↔ _
  rw [View.set_slice_whole, Rect.mem_set_unit]
  exact Iff.rfl

/-- The 32 blocks cover the result array: the index with leading coordinate b lies in block ⌊b / 4⌋. -/
theorem covered (i : S128x1024x256.Idx) : ∃ t : Fin cfg0.N, (cfg0.win 1).flush t = true ∧ i ∈ ((cfg0.win 1).blk t).view.set := by
  have hi0 : (i 0).val < 128 := (i 0).isLt
  have hi1 : (i 1).val < 1024 := (i 1).isLt
  have hi2 : (i 2).val < 256 := (i 2).isLt
  have hN : cfg0.N = 32 := N_0
  let t : Fin cfg0.N := ⟨(i 0).val / 4, by rw [hN]; omega⟩
  obtain ⟨e0, e1, e2, e3, e4, e5⟩ := index_facts t
  have e5' : win0_1.index t (0 : Fin 3) = (i 0).val / 4 := e5
  refine ⟨t, flush0_1 t, ?_⟩
  rw [mem_block]
  intro a
  match a with
  | ⟨0, _⟩ => show win0_1.index t (0 : Fin 3) * 4 ≤ (i 0).val ∧ (i 0).val < win0_1.index t (0 : Fin 3) * 4 + 4; rw [e5']; omega
  | ⟨1, _⟩ => show win0_1.index t (1 : Fin 3) * 1024 ≤ (i 1).val ∧ (i 1).val < win0_1.index t (1 : Fin 3) * 1024 + 1024; rw [e3]; omega
  | ⟨2, _⟩ => show win0_1.index t (2 : Fin 3) * 256 ≤ (i 2).val ∧ (i 2).val < win0_1.index t (2 : Fin 3) * 256 + 256; rw [e4]; omega

/-- The result array after the run. -/
theorem final (c : Dev nD) : (dats m 0 c).arrAt 1 cfg0.N = fwht 128 (V m c main_arg0) :=
  (dats m 0 c).arrAt_eq_of_cover 1 (fwht 128 (V m c main_arg0)) (fun t _ => flushed_eq m c t) covered

/-- Every weakly fair execution of the kernel's @main terminates with the result array at the transform of the argument
    array, and the argument unchanged. -/
theorem run : θ_run defs (onTc (τ := τ) (main (F := F))) ⟨m, fun _ => 0, ρ⟩ fun r => ∀ c : Dev nD,
      r.2.mem ((c : Thread nD τ).loc main_v0) = fwht 128 (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.BlockValue

end
-- ==== Proof.RefOps.lean ====
/- A table: the reference's 110 host operations, as the printed program passes them to `hlo`, in order, cut into ten
   lists of eleven — one butterfly stage each (reshape, slice, reshape, slice, reshape, add, subtract, two broadcasts
   that put the unit axis back, concatenate, reshape). No statement about them is made here. -/
import proofs.«113838_j901943132182_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The eleven operations of stage 0 (half-width 1). -/
abbrev ops0 : List (HloOp τ sig (Elt F)) :=
  [ StableHlo.reshape main_arg0 main_v0 rfl shapeCasts_S128x1024x256_S128x512x2x1x256,
    StableHlo.unary main_v0 main_v1 ((extractStridedSlice S128x512x1x1x256 ![0, 0, 0, 0, 0] · slices_S128x512x2x1x256_S128x512x1x1x256_0_0_0_0_0) : (⟨S128x512x2x1x256, .f32⟩ : BufTy).Contents (Elt F) → (⟨S128x512x1x1x256, .f32⟩ : BufTy).Contents (Elt F)),
    StableHlo.reshape main_v1 main_v2 rfl shapeCasts_S128x512x1x1x256_S128x512x1x256,
    StableHlo.unary main_v0 main_v3 ((extractStridedSlice S128x512x1x1x256 ![0, 0, 1, 0, 0] · slices_S128x512x2x1x256_S128x512x1x1x256_0_0_1_0_0) : (⟨S128x512x2x1x256, .f32⟩ : BufTy).Contents (Elt F) → (⟨S128x512x1x1x256, .f32⟩ : BufTy).Contents (Elt F)),
    StableHlo.reshape main_v3 main_v4 rfl shapeCasts_S128x512x1x1x256_S128x512x1x256,
    StableHlo.binary main_v2 main_v4 main_v5 (addf : (⟨S128x512x1x256, .f32⟩ : BufTy).Contents (Elt F) → (⟨S128x512x1x256, .f32⟩ : BufTy).Contents (Elt F) → (⟨S128x512x1x256, .f32⟩ : BufTy).Contents (Elt F)),
    StableHlo.binary main_v2 main_v4 main_v6 (subf : (⟨S128x512x1x256, .f32⟩ : BufTy).Contents (Elt F) → (⟨S128x512x1x256, .f32⟩ : BufTy).Contents (Elt F) → (⟨S128x512x1x256, .f32⟩ : BufTy).Contents (Elt F)),
    StableHlo.unary main_v5 main_v7 (broadcastInDim S128x512x1x1x256 ![0, 1, 3, 4] bcast_S128x512x1x256_S128x512x1x1x256_0_1_3_4 : (⟨S128x512x1x256, .f32⟩ : BufTy).Contents (Elt F) → (⟨S128x512x1x1x256, .f32⟩ : BufTy).Contents (Elt F)),
    StableHlo.unary main_v6 main_v8 (broadcastInDim S128x512x1x1x256 ![0, 1, 3, 4] bcast_S128x512x1x256_S128x512x1x1x256_0_1_3_4 : (⟨S128x512x1x256, .f32⟩ : BufTy).Contents (Elt F) → (⟨S128x512x1x1x256, .f32⟩ : BufTy).Contents (Elt F)),
    StableHlo.binary main_v7 main_v8 main_v9 ((fun a b => concatenate S128x512x2x1x256 2 [⟨S128x512x1x1x256, a⟩, ⟨S128x512x1x1x256, b⟩] concatenates_S128x512x1x1x256_S128x512x1x1x256_S128x512x2x1x256_d2) : (⟨S128x512x1x1x256, .f32⟩ : BufTy).Contents (Elt F) → (⟨S128x512x1x1x256, .f32⟩ : BufTy).Contents (Elt F) → (⟨S128x512x2x1x256, .f32⟩ : BufTy).Contents (Elt F)),
    StableHlo.reshape main_v9 main_v10 rfl shapeCasts_S128x512x2x1x256_S128x1024x256 ]

/-- The eleven operations of stage 1 (half-width 2). -/
abbrev ops1 : List (HloOp τ sig (Elt F)) :=
  [ StableHlo.reshape main_v10 main_v11 rfl shapeCasts_S128x1024x256_S128x256x2x2x256,
    StableHlo.unary main_v11 main_v12 ((extractStridedSlice S128x256x1x2x256 ![0, 0, 0, 0, 0] · slices_S128x256x2x2x256_S128x256x1x2x256_0_0_0_0_0) : (⟨S128x256x2x2x256, .f32⟩ : BufTy).Contents (Elt F) → (⟨S128x256x1x2x256, .f32⟩ : BufTy).Contents (Elt F)),
    StableHlo.reshape main_v12 main_v13 rfl shapeCasts_S128x256x1x2x256_S128x256x2x256,
    StableHlo.unary main_v11 main_v14 ((extractStridedSlice S128x256x1x2x256 ![0, 0, 1, 0, 0] · slices_S128x256x2x2x256_S128x256x1x2x256_0_0_1_0_0) : (⟨S128x256x2x2x256, .f32⟩ : BufTy).Contents (Elt F) → (⟨S128x256x1x2x256, .f32⟩ : BufTy).Contents (Elt F)),
    StableHlo.reshape main_v14 main_v15 rfl shapeCasts_S128x256x1x2x256_S128x256x2x256,
    StableHlo.binary main_v13 main_v15 main_v16 (addf : (⟨S128x256x2x256, .f32⟩ : BufTy).Contents (Elt F) → (⟨S128x256x2x256, .f32⟩ : BufTy).Contents (Elt F) → (⟨S128x256x2x256, .f32⟩ : BufTy).Contents (Elt F)),
    StableHlo.binary main_v13 main_v15 main_v17 (subf : (⟨S128x256x2x256, .f32⟩ : BufTy).Contents (Elt F) → (⟨S128x256x2x256, .f32⟩ : BufTy).Contents (Elt F) → (⟨S128x256x2x256, .f32⟩ : BufTy).Contents (Elt F)),
    StableHlo.unary main_v16 main_v18 (broadcastInDim S128x256x1x2x256 ![0, 1, 3, 4] bcast_S128x256x2x256_S128x256x1x2x256_0_1_3_4 : (⟨S128x256x2x256, .f32⟩ : BufTy).Contents (Elt F) → (⟨S128x256x1x2x256, .f32⟩ : BufTy).Contents (Elt F)),
    StableHlo.unary main_v17 main_v19 (broadcastInDim S128x256x1x2x256 ![0, 1, 3, 4] bcast_S128x256x2x256_S128x256x1x2x256_0_1_3_4 : (⟨S128x256x2x256, .f32⟩ : BufTy).Contents (Elt F) → (⟨S128x256x1x2x256, .f32⟩ : BufTy).Contents (Elt F)),
    StableHlo.binary main_v18 main_v19 main_v20 ((fun a b => concatenate S128x256x2x2x256 2 [⟨S128x256x1x2x256, a⟩, ⟨S128x256x1x2x256, b⟩] concatenates_S128x256x1x2x256_S128x256x1x2x256_S128x256x2x2x256_d2) : (⟨S128x256x1x2x256, .f32⟩ : BufTy).Contents (Elt F) → (⟨S128x256x1x2x256, .f32⟩ : BufTy).Contents (Elt F) → (⟨S128x256x2x2x256, .f32⟩ : BufTy).Contents (Elt F)),
    StableHlo.reshape main_v20 main_v21 rfl shapeCasts_S128x256x2x2x256_S128x1024x256 ]

/-- The eleven operations of stage 2 (half-width 4). -/
abbrev ops2 : List (HloOp τ sig (Elt F)) :=
  [ StableHlo.reshape main_v21 main_v22 rfl shapeCasts_S128x1024x256_S128x128x2x4x256,
    StableHlo.unary main_v22 main_v23 ((extractStridedSlice S128x128x1x4x256 ![0, 0, 0, 0, 0] · slices_S128x128x2x4x256_S128x128x1x4x256_0_0_0_0_0) : (⟨S128x128x2x4x256, .f32⟩ : BufTy).Contents (Elt F) → (⟨S128x128x1x4x256, .f32⟩ : BufTy).Contents (Elt F)),
    StableHlo.reshape main_v23 main_v24 rfl shapeCasts_S128x128x1x4x256_S128x128x4x256,
    StableHlo.unary main_v22 main_v25 ((extractStridedSlice S128x128x1x4x256 ![0, 0, 1, 0, 0] · slices_S128x128x2x4x256_S128x128x1x4x256_0_0_1_0_0) : (⟨S128x128x2x4x256, .f32⟩ : BufTy).Contents (Elt F) → (⟨S128x128x1x4x256, .f32⟩ : BufTy).Contents (Elt F)),
    StableHlo.reshape main_v25 main_v26 rfl shapeCasts_S128x128x1x4x256_S128x128x4x256,
    StableHlo.binary main_v24 main_v26 main_v27 (addf : (⟨S128x128x4x256, .f32⟩ : BufTy).Contents (Elt F) → (⟨S128x128x4x256, .f32⟩ : BufTy).Contents (Elt F) → (⟨S128x128x4x256, .f32⟩ : BufTy).Contents (Elt F)),
    StableHlo.binary main_v24 main_v26 main_v28 (subf : (⟨S128x128x4x256, .f32⟩ : BufTy).Contents (Elt F) → (⟨S128x128x4x256, .f32⟩ : BufTy).Contents (Elt F) → (⟨S128x128x4x256, .f32⟩ : BufTy).Contents (Elt F)),
    StableHlo.unary main_v27 main_v29 (broadcastInDim S128x128x1x4x256 ![0, 1, 3, 4] bcast_S128x128x4x256_S128x128x1x4x256_0_1_3_4 : (⟨S128x128x4x256, .f32⟩ : BufTy).Contents (Elt F) → (⟨S128x128x1x4x256, .f32⟩ : BufTy).Contents (Elt F)),
    StableHlo.unary main_v28 main_v30 (broadcastInDim S128x128x1x4x256 ![0, 1, 3, 4] bcast_S128x128x4x256_S128x128x1x4x256_0_1_3_4 : (⟨S128x128x4x256, .f32⟩ : BufTy).Contents (Elt F) → (⟨S128x128x1x4x256, .f32⟩ : BufTy).Contents (Elt F)),
    StableHlo.binary main_v29 main_v30 main_v31 ((fun a b => concatenate S128x128x2x4x256 2 [⟨S128x128x1x4x256, a⟩, ⟨S128x128x1x4x256, b⟩] concatenates_S128x128x1x4x256_S128x128x1x4x256_S128x128x2x4x256_d2) : (⟨S128x128x1x4x256, .f32⟩ : BufTy).Contents (Elt F) → (⟨S128x128x1x4x256, .f32⟩ : BufTy).Contents (Elt F) → (⟨S128x128x2x4x256, .f32⟩ : BufTy).Contents (Elt F)),
    StableHlo.reshape main_v31 main_v32 rfl shapeCasts_S128x128x2x4x256_S128x1024x256 ]

/-- The eleven operations of stage 3 (half-width 8). -/
abbrev ops3 : List (HloOp τ sig (Elt F)) :=
  [ StableHlo.reshape main_v32 main_v33 rfl shapeCasts_S128x1024x256_S128x64x2x8x256,
    StableHlo.unary main_v33 main_v34 ((extractStridedSlice S128x64x1x8x256 ![0, 0, 0, 0, 0] · slices_S128x64x2x8x256_S128x64x1x8x256_0_0_0_0_0) : (⟨S128x64x2x8x256, .f32⟩ : BufTy).Contents (Elt F) → (⟨S128x64x1x8x256, .f32⟩ : BufTy).Contents (Elt F)),
    StableHlo.reshape main_v34 main_v35 rfl shapeCasts_S128x64x1x8x256_S128x64x8x256,
    StableHlo.unary main_v33 main_v36 ((extractStridedSlice S128x64x1x8x256 ![0, 0, 1, 0, 0] · slices_S128x64x2x8x256_S128x64x1x8x256_0_0_1_0_0) : (⟨S128x64x2x8x256, .f32⟩ : BufTy).Contents (Elt F) → (⟨S128x64x1x8x256, .f32⟩ : BufTy).Contents (Elt F)),
    StableHlo.reshape main_v36 main_v37 rfl shapeCasts_S128x64x1x8x256_S128x64x8x256,
    StableHlo.binary main_v35 main_v37 main_v38 (addf : (⟨S128x64x8x256, .f32⟩ : BufTy).Contents (Elt F) → (⟨S128x64x8x256, .f32⟩ : BufTy).Contents (Elt F) → (⟨S128x64x8x256, .f32⟩ : BufTy).Contents (Elt F)),
    StableHlo.binary main_v35 main_v37 main_v39 (subf : (⟨S128x64x8x256, .f32⟩ : BufTy).Contents (Elt F) → (⟨S128x64x8x256, .f32⟩ : BufTy).Contents (Elt F) → (⟨S128x64x8x256, .f32⟩ : BufTy).Contents (Elt F)),
    StableHlo.unary main_v38 main_v40 (broadcastInDim S128x64x1x8x256 ![0, 1, 3, 4] bcast_S128x64x8x256_S128x64x1x8x256_0_1_3_4 : (⟨S128x64x8x256, .f32⟩ : BufTy).Contents (Elt F) → (⟨S128x64x1x8x256, .f32⟩ : BufTy).Contents (Elt F)),
    StableHlo.unary main_v39 main_v41 (broadcastInDim S128x64x1x8x256 ![0, 1, 3, 4] bcast_S128x64x8x256_S128x64x1x8x256_0_1_3_4 : (⟨S128x64x8x256, .f32⟩ : BufTy).Contents (Elt F) → (⟨S128x64x1x8x256, .f32⟩ : BufTy).Contents (Elt F)),
    StableHlo.binary main_v40 main_v41 main_v42 ((fun a b => concatenate S128x64x2x8x256 2 [⟨S128x64x1x8x256, a⟩, ⟨S128x64x1x8x256, b⟩] concatenates_S128x64x1x8x256_S128x64x1x8x256_S128x64x2x8x256_d2) : (⟨S128x64x1x8x256, .f32⟩ : BufTy).Contents (Elt F) → (⟨S128x64x1x8x256, .f32⟩ : BufTy).Contents (Elt F) → (⟨S128x64x2x8x256, .f32⟩ : BufTy).Contents (Elt F)),
    StableHlo.reshape main_v42 main_v43 rfl shapeCasts_S128x64x2x8x256_S128x1024x256 ]

/-- The eleven operations of stage 4 (half-width 16). -/
abbrev ops4 : List (HloOp τ sig (Elt F)) :=
  [ StableHlo.reshape main_v43 main_v44 rfl shapeCasts_S128x1024x256_S128x32x2x16x256,
    StableHlo.unary main_v44 main_v45 ((extractStridedSlice S128x32x1x16x256 ![0, 0, 0, 0, 0] · slices_S128x32x2x16x256_S128x32x1x16x256_0_0_0_0_0) : (⟨S128x32x2x16x256, .f32⟩ : BufTy).Contents (Elt F) → (⟨S128x32x1x16x256, .f32⟩ : BufTy).Contents (Elt F)),
    StableHlo.reshape main_v45 main_v46 rfl shapeCasts_S128x32x1x16x256_S128x32x16x256,
    StableHlo.unary main_v44 main_v47 ((extractStridedSlice S128x32x1x16x256 ![0, 0, 1, 0, 0] · slices_S128x32x2x16x256_S128x32x1x16x256_0_0_1_0_0) : (⟨S128x32x2x16x256, .f32⟩ : BufTy).Contents (Elt F) → (⟨S128x32x1x16x256, .f32⟩ : BufTy).Contents (Elt F)),
    StableHlo.reshape main_v47 main_v48 rfl shapeCasts_S128x32x1x16x256_S128x32x16x256,
    StableHlo.binary main_v46 main_v48 main_v49 (addf : (⟨S128x32x16x256, .f32⟩ : BufTy).Contents (Elt F) → (⟨S128x32x16x256, .f32⟩ : BufTy).Contents (Elt F) → (⟨S128x32x16x256, .f32⟩ : BufTy).Contents (Elt F)),
    StableHlo.binary main_v46 main_v48 main_v50 (subf : (⟨S128x32x16x256, .f32⟩ : BufTy).Contents (Elt F) → (⟨S128x32x16x256, .f32⟩ : BufTy).Contents (Elt F) → (⟨S128x32x16x256, .f32⟩ : BufTy).Contents (Elt F)),
    StableHlo.unary main_v49 main_v51 (broadcastInDim S128x32x1x16x256 ![0, 1, 3, 4] bcast_S128x32x16x256_S128x32x1x16x256_0_1_3_4 : (⟨S128x32x16x256, .f32⟩ : BufTy).Contents (Elt F) → (⟨S128x32x1x16x256, .f32⟩ : BufTy).Contents (Elt F)),
    StableHlo.unary main_v50 main_v52 (broadcastInDim S128x32x1x16x256 ![0, 1, 3, 4] bcast_S128x32x16x256_S128x32x1x16x256_0_1_3_4 : (⟨S128x32x16x256, .f32⟩ : BufTy).Contents (Elt F) → (⟨S128x32x1x16x256, .f32⟩ : BufTy).Contents (Elt F)),
    StableHlo.binary main_v51 main_v52 main_v53 ((fun a b => concatenate S128x32x2x16x256 2 [⟨S128x32x1x16x256, a⟩, ⟨S128x32x1x16x256, b⟩] concatenates_S128x32x1x16x256_S128x32x1x16x256_S128x32x2x16x256_d2) : (⟨S128x32x1x16x256, .f32⟩ : BufTy).Contents (Elt F) → (⟨S128x32x1x16x256, .f32⟩ : BufTy).Contents (Elt F) → (⟨S128x32x2x16x256, .f32⟩ : BufTy).Contents (Elt F)),
    StableHlo.reshape main_v53 main_v54 rfl shapeCasts_S128x32x2x16x256_S128x1024x256 ]

/-- The eleven operations of stage 5 (half-width 32). -/
abbrev ops5 : List (HloOp τ sig (Elt F)) :=
  [ StableHlo.reshape main_v54 main_v55 rfl shapeCasts_S128x1024x256_S128x16x2x32x256,
    StableHlo.unary main_v55 main_v56 ((extractStridedSlice S128x16x1x32x256 ![0, 0, 0, 0, 0] · slices_S128x16x2x32x256_S128x16x1x32x256_0_0_0_0_0) : (⟨S128x16x2x32x256, .f32⟩ : BufTy).Contents (Elt F) → (⟨S128x16x1x32x256, .f32⟩ : BufTy).Contents (Elt F)),
    StableHlo.reshape main_v56 main_v57 rfl shapeCasts_S128x16x1x32x256_S128x16x32x256,
    StableHlo.unary main_v55 main_v58 ((extractStridedSlice S128x16x1x32x256 ![0, 0, 1, 0, 0] · slices_S128x16x2x32x256_S128x16x1x32x256_0_0_1_0_0) : (⟨S128x16x2x32x256, .f32⟩ : BufTy).Contents (Elt F) → (⟨S128x16x1x32x256, .f32⟩ : BufTy).Contents (Elt F)),
    StableHlo.reshape main_v58 main_v59 rfl shapeCasts_S128x16x1x32x256_S128x16x32x256,
    StableHlo.binary main_v57 main_v59 main_v60 (addf : (⟨S128x16x32x256, .f32⟩ : BufTy).Contents (Elt F) → (⟨S128x16x32x256, .f32⟩ : BufTy).Contents (Elt F) → (⟨S128x16x32x256, .f32⟩ : BufTy).Contents (Elt F)),
    StableHlo.binary main_v57 main_v59 main_v61 (subf : (⟨S128x16x32x256, .f32⟩ : BufTy).Contents (Elt F) → (⟨S128x16x32x256, .f32⟩ : BufTy).Contents (Elt F) → (⟨S128x16x32x256, .f32⟩ : BufTy).Contents (Elt F)),
    StableHlo.unary main_v60 main_v62 (broadcastInDim S128x16x1x32x256 ![0, 1, 3, 4] bcast_S128x16x32x256_S128x16x1x32x256_0_1_3_4 : (⟨S128x16x32x256, .f32⟩ : BufTy).Contents (Elt F) → (⟨S128x16x1x32x256, .f32⟩ : BufTy).Contents (Elt F)),
    StableHlo.unary main_v61 main_v63 (broadcastInDim S128x16x1x32x256 ![0, 1, 3, 4] bcast_S128x16x32x256_S128x16x1x32x256_0_1_3_4 : (⟨S128x16x32x256, .f32⟩ : BufTy).Contents (Elt F) → (⟨S128x16x1x32x256, .f32⟩ : BufTy).Contents (Elt F)),
    StableHlo.binary main_v62 main_v63 main_v64 ((fun a b => concatenate S128x16x2x32x256 2 [⟨S128x16x1x32x256, a⟩, ⟨S128x16x1x32x256, b⟩] concatenates_S128x16x1x32x256_S128x16x1x32x256_S128x16x2x32x256_d2) : (⟨S128x16x1x32x256, .f32⟩ : BufTy).Contents (Elt F) → (⟨S128x16x1x32x256, .f32⟩ : BufTy).Contents (Elt F) → (⟨S128x16x2x32x256, .f32⟩ : BufTy).Contents (Elt F)),
    StableHlo.reshape main_v64 main_v65 rfl shapeCasts_S128x16x2x32x256_S128x1024x256 ]

/-- The eleven operations of stage 6 (half-width 64). -/
abbrev ops6 : List (HloOp τ sig (Elt F)) :=
  [ StableHlo.reshape main_v65 main_v66 rfl shapeCasts_S128x1024x256_S128x8x2x64x256,
    StableHlo.unary main_v66 main_v67 ((extractStridedSlice S128x8x1x64x256 ![0, 0, 0, 0, 0] · slices_S128x8x2x64x256_S128x8x1x64x256_0_0_0_0_0) : (⟨S128x8x2x64x256, .f32⟩ : BufTy).Contents (Elt F) → (⟨S128x8x1x64x256, .f32⟩ : BufTy).Contents (Elt F)),
    StableHlo.reshape main_v67 main_v68 rfl shapeCasts_S128x8x1x64x256_S128x8x64x256,
    StableHlo.unary main_v66 main_v69 ((extractStridedSlice S128x8x1x64x256 ![0, 0, 1, 0, 0] · slices_S128x8x2x64x256_S128x8x1x64x256_0_0_1_0_0) : (⟨S128x8x2x64x256, .f32⟩ : BufTy).Contents (Elt F) → (⟨S128x8x1x64x256, .f32⟩ : BufTy).Contents (Elt F)),
    StableHlo.reshape main_v69 main_v70 rfl shapeCasts_S128x8x1x64x256_S128x8x64x256,
    StableHlo.binary main_v68 main_v70 main_v71 (addf : (⟨S128x8x64x256, .f32⟩ : BufTy).Contents (Elt F) → (⟨S128x8x64x256, .f32⟩ : BufTy).Contents (Elt F) → (⟨S128x8x64x256, .f32⟩ : BufTy).Contents (Elt F)),
    StableHlo.binary main_v68 main_v70 main_v72 (subf : (⟨S128x8x64x256, .f32⟩ : BufTy).Contents (Elt F) → (⟨S128x8x64x256, .f32⟩ : BufTy).Contents (Elt F) → (⟨S128x8x64x256, .f32⟩ : BufTy).Contents (Elt F)),
    StableHlo.unary main_v71 main_v73 (broadcastInDim S128x8x1x64x256 ![0, 1, 3, 4] bcast_S128x8x64x256_S128x8x1x64x256_0_1_3_4 : (⟨S128x8x64x256, .f32⟩ : BufTy).Contents (Elt F) → (⟨S128x8x1x64x256, .f32⟩ : BufTy).Contents (Elt F)),
    StableHlo.unary main_v72 main_v74 (broadcastInDim S128x8x1x64x256 ![0, 1, 3, 4] bcast_S128x8x64x256_S128x8x1x64x256_0_1_3_4 : (⟨S128x8x64x256, .f32⟩ : BufTy).Contents (Elt F) → (⟨S128x8x1x64x256, .f32⟩ : BufTy).Contents (Elt F)),
    StableHlo.binary main_v73 main_v74 main_v75 ((fun a b => concatenate S128x8x2x64x256 2 [⟨S128x8x1x64x256, a⟩, ⟨S128x8x1x64x256, b⟩] concatenates_S128x8x1x64x256_S128x8x1x64x256_S128x8x2x64x256_d2) : (⟨S128x8x1x64x256, .f32⟩ : BufTy).Contents (Elt F) → (⟨S128x8x1x64x256, .f32⟩ : BufTy).Contents (Elt F) → (⟨S128x8x2x64x256, .f32⟩ : BufTy).Contents (Elt F)),
    StableHlo.reshape main_v75 main_v76 rfl shapeCasts_S128x8x2x64x256_S128x1024x256 ]

/-- The eleven operations of stage 7 (half-width 128). -/
abbrev ops7 : List (HloOp τ sig (Elt F)) :=
  [ StableHlo.reshape main_v76 main_v77 rfl shapeCasts_S128x1024x256_S128x4x2x128x256,
    StableHlo.unary main_v77 main_v78 ((extractStridedSlice S128x4x1x128x256 ![0, 0, 0, 0, 0] · slices_S128x4x2x128x256_S128x4x1x128x256_0_0_0_0_0) : (⟨S128x4x2x128x256, .f32⟩ : BufTy).Contents (Elt F) → (⟨S128x4x1x128x256, .f32⟩ : BufTy).Contents (Elt F)),
    StableHlo.reshape main_v78 main_v79 rfl shapeCasts_S128x4x1x128x256_S128x4x128x256,
    StableHlo.unary main_v77 main_v80 ((extractStridedSlice S128x4x1x128x256 ![0, 0, 1, 0, 0] · slices_S128x4x2x128x256_S128x4x1x128x256_0_0_1_0_0) : (⟨S128x4x2x128x256, .f32⟩ : BufTy).Contents (Elt F) → (⟨S128x4x1x128x256, .f32⟩ : BufTy).Contents (Elt F)),
    StableHlo.reshape main_v80 main_v81 rfl shapeCasts_S128x4x1x128x256_S128x4x128x256,
    StableHlo.binary main_v79 main_v81 main_v82 (addf : (⟨S128x4x128x256, .f32⟩ : BufTy).Contents (Elt F) → (⟨S128x4x128x256, .f32⟩ : BufTy).Contents (Elt F) → (⟨S128x4x128x256, .f32⟩ : BufTy).Contents (Elt F)),
    StableHlo.binary main_v79 main_v81 main_v83 (subf : (⟨S128x4x128x256, .f32⟩ : BufTy).Contents (Elt F) → (⟨S128x4x128x256, .f32⟩ : BufTy).Contents (Elt F) → (⟨S128x4x128x256, .f32⟩ : BufTy).Contents (Elt F)),
    StableHlo.unary main_v82 main_v84 (broadcastInDim S128x4x1x128x256 ![0, 1, 3, 4] bcast_S128x4x128x256_S128x4x1x128x256_0_1_3_4 : (⟨S128x4x128x256, .f32⟩ : BufTy).Contents (Elt F) → (⟨S128x4x1x128x256, .f32⟩ : BufTy).Contents (Elt F)),
    StableHlo.unary main_v83 main_v85 (broadcastInDim S128x4x1x128x256 ![0, 1, 3, 4] bcast_S128x4x128x256_S128x4x1x128x256_0_1_3_4 : (⟨S128x4x128x256, .f32⟩ : BufTy).Contents (Elt F) → (⟨S128x4x1x128x256, .f32⟩ : BufTy).Contents (Elt F)),
    StableHlo.binary main_v84 main_v85 main_v86 ((fun a b => concatenate S128x4x2x128x256 2 [⟨S128x4x1x128x256, a⟩, ⟨S128x4x1x128x256, b⟩] concatenates_S128x4x1x128x256_S128x4x1x128x256_S128x4x2x128x256_d2) : (⟨S128x4x1x128x256, .f32⟩ : BufTy).Contents (Elt F) → (⟨S128x4x1x128x256, .f32⟩ : BufTy).Contents (Elt F) → (⟨S128x4x2x128x256, .f32⟩ : BufTy).Contents (Elt F)),
    StableHlo.reshape main_v86 main_v87 rfl shapeCasts_S128x4x2x128x256_S128x1024x256 ]

/-- The eleven operations of stage 8 (half-width 256). -/
abbrev ops8 : List (HloOp τ sig (Elt F)) :=
  [ StableHlo.reshape main_v87 main_v88 rfl shapeCasts_S128x1024x256_S128x2x2x256x256,
    StableHlo.unary main_v88 main_v89 ((extractStridedSlice S128x2x1x256x256 ![0, 0, 0, 0, 0] · slices_S128x2x2x256x256_S128x2x1x256x256_0_0_0_0_0) : (⟨S128x2x2x256x256, .f32⟩ : BufTy).Contents (Elt F) → (⟨S128x2x1x256x256, .f32⟩ : BufTy).Contents (Elt F)),
    StableHlo.reshape main_v89 main_v90 rfl shapeCasts_S128x2x1x256x256_S128x2x256x256,
    StableHlo.unary main_v88 main_v91 ((extractStridedSlice S128x2x1x256x256 ![0, 0, 1, 0, 0] · slices_S128x2x2x256x256_S128x2x1x256x256_0_0_1_0_0) : (⟨S128x2x2x256x256, .f32⟩ : BufTy).Contents (Elt F) → (⟨S128x2x1x256x256, .f32⟩ : BufTy).Contents (Elt F)),
    StableHlo.reshape main_v91 main_v92 rfl shapeCasts_S128x2x1x256x256_S128x2x256x256,
    StableHlo.binary main_v90 main_v92 main_v93 (addf : (⟨S128x2x256x256, .f32⟩ : BufTy).Contents (Elt F) → (⟨S128x2x256x256, .f32⟩ : BufTy).Contents (Elt F) → (⟨S128x2x256x256, .f32⟩ : BufTy).Contents (Elt F)),
    StableHlo.binary main_v90 main_v92 main_v94 (subf : (⟨S128x2x256x256, .f32⟩ : BufTy).Contents (Elt F) → (⟨S128x2x256x256, .f32⟩ : BufTy).Contents (Elt F) → (⟨S128x2x256x256, .f32⟩ : BufTy).Contents (Elt F)),
    StableHlo.unary main_v93 main_v95 (broadcastInDim S128x2x1x256x256 ![0, 1, 3, 4] bcast_S128x2x256x256_S128x2x1x256x256_0_1_3_4 : (⟨S128x2x256x256, .f32⟩ : BufTy).Contents (Elt F) → (⟨S128x2x1x256x256, .f32⟩ : BufTy).Contents (Elt F)),
    StableHlo.unary main_v94 main_v96 (broadcastInDim S128x2x1x256x256 ![0, 1, 3, 4] bcast_S128x2x256x256_S128x2x1x256x256_0_1_3_4 : (⟨S128x2x256x256, .f32⟩ : BufTy).Contents (Elt F) → (⟨S128x2x1x256x256, .f32⟩ : BufTy).Contents (Elt F)),
    StableHlo.binary main_v95 main_v96 main_v97 ((fun a b => concatenate S128x2x2x256x256 2 [⟨S128x2x1x256x256, a⟩, ⟨S128x2x1x256x256, b⟩] concatenates_S128x2x1x256x256_S128x2x1x256x256_S128x2x2x256x256_d2) : (⟨S128x2x1x256x256, .f32⟩ : BufTy).Contents (Elt F) → (⟨S128x2x1x256x256, .f32⟩ : BufTy).Contents (Elt F) → (⟨S128x2x2x256x256, .f32⟩ : BufTy).Contents (Elt F)),
    StableHlo.reshape main_v97 main_v98 rfl shapeCasts_S128x2x2x256x256_S128x1024x256 ]

/-- The eleven operations of stage 9 (half-width 512). -/
abbrev ops9 : List (HloOp τ sig (Elt F)) :=
  [ StableHlo.reshape main_v98 main_v99 rfl shapeCasts_S128x1024x256_S128x1x2x512x256,
    StableHlo.unary main_v99 main_v100 ((extractStridedSlice S128x1x1x512x256 ![0, 0, 0, 0, 0] · slices_S128x1x2x512x256_S128x1x1x512x256_0_0_0_0_0) : (⟨S128x1x2x512x256, .f32⟩ : BufTy).Contents (Elt F) → (⟨S128x1x1x512x256, .f32⟩ : BufTy).Contents (Elt F)),
    StableHlo.reshape main_v100 main_v101 rfl shapeCasts_S128x1x1x512x256_S128x1x512x256,
    StableHlo.unary main_v99 main_v102 ((extractStridedSlice S128x1x1x512x256 ![0, 0, 1, 0, 0] · slices_S128x1x2x512x256_S128x1x1x512x256_0_0_1_0_0) : (⟨S128x1x2x512x256, .f32⟩ : BufTy).Contents (Elt F) → (⟨S128x1x1x512x256, .f32⟩ : BufTy).Contents (Elt F)),
    StableHlo.reshape main_v102 main_v103 rfl shapeCasts_S128x1x1x512x256_S128x1x512x256,
    StableHlo.binary main_v101 main_v103 main_v104 (addf : (⟨S128x1x512x256, .f32⟩ : BufTy).Contents (Elt F) → (⟨S128x1x512x256, .f32⟩ : BufTy).Contents (Elt F) → (⟨S128x1x512x256, .f32⟩ : BufTy).Contents (Elt F)),
    StableHlo.binary main_v101 main_v103 main_v105 (subf : (⟨S128x1x512x256, .f32⟩ : BufTy).Contents (Elt F) → (⟨S128x1x512x256, .f32⟩ : BufTy).Contents (Elt F) → (⟨S128x1x512x256, .f32⟩ : BufTy).Contents (Elt F)),
    StableHlo.unary main_v104 main_v106 (broadcastInDim S128x1x1x512x256 ![0, 1, 3, 4] bcast_S128x1x512x256_S128x1x1x512x256_0_1_3_4 : (⟨S128x1x512x256, .f32⟩ : BufTy).Contents (Elt F) → (⟨S128x1x1x512x256, .f32⟩ : BufTy).Contents (Elt F)),
    StableHlo.unary main_v105 main_v107 (broadcastInDim S128x1x1x512x256 ![0, 1, 3, 4] bcast_S128x1x512x256_S128x1x1x512x256_0_1_3_4 : (⟨S128x1x512x256, .f32⟩ : BufTy).Contents (Elt F) → (⟨S128x1x1x512x256, .f32⟩ : BufTy).Contents (Elt F)),
    StableHlo.binary main_v106 main_v107 main_v108 ((fun a b => concatenate S128x1x2x512x256 2 [⟨S128x1x1x512x256, a⟩, ⟨S128x1x1x512x256, b⟩] concatenates_S128x1x1x512x256_S128x1x1x512x256_S128x1x2x512x256_d2) : (⟨S128x1x1x512x256, .f32⟩ : BufTy).Contents (Elt F) → (⟨S128x1x1x512x256, .f32⟩ : BufTy).Contents (Elt F) → (⟨S128x1x2x512x256, .f32⟩ : BufTy).Contents (Elt F)),
    StableHlo.reshape main_v108 main_v109 rfl shapeCasts_S128x1x2x512x256_S128x1024x256 ]

end Cert.ReferenceIdeal.RefOps

end
-- ==== Proof.RefValue.lean ====
/-
  The reference's value: its run ends with the result buffer at the ten butterfly stages of the whole argument array.

  The program is a straight line of 110 host operations, eleven per stage (their lists are laid out in RefOps.lean).  One
  stage's eleven operations, run from ANY contents `W` of the buffers, leave the stage's result buffer at `stage` of the
  stage's input buffer (`stage_broadcast_form`: the reference puts the unit axis back by a broadcast along it) and do not
  write the argument.  The run of the whole line is then the ten stages in a row, H = 1, 2, …, 512: `fwht 128` of the
  argument array.
-/
import proofs.«113838_j901943132182_1_alg».proof.Proof.RefOps
import proofs.«113838_j901943132182_1_alg».proof.Proof.Butterfly
import Idealize.ShloMosaic.Lib.StableHlo.Run
import Idealize.ShloMosaic.Lib.Pipeline.Frame

noncomputable section

namespace Cert.ReferenceIdeal.RefValue

open Cert.ReferenceIdeal Cert.ReferenceIdeal.Gen Cert.ReferenceIdeal.RefOps Idealize.ShloMosaic Idealize.ShloMosaic.TcCoe
open Idealize.SL.Sem Idealize.ShloMosaic.StableHlo Cert.Butterfly

variable {F : FTy → Type} [FloatOps F]

/-! ## One stage's operations, from any contents -/

theorem out0 (W : Valuation τ sig (Elt F)) :
    after ops0 W (Proc.devRef .tc main_v10) = stage 128 1024 256 1 (W (Proc.devRef .tc main_arg0)) := by
  after_results
  exact stage_broadcast_form (B := 128) (N := 1024) (D := 256) (J := 512) (H := 1) (by norm_num) (by norm_num) _ _ _ _ _ _ _ _

theorem out1 (W : Valuation τ sig (Elt F)) :
    after ops1 W (Proc.devRef .tc main_v21) = stage 128 1024 256 2 (W (Proc.devRef .tc main_v10)) := by
  after_results
  exact stage_broadcast_form (B := 128) (N := 1024) (D := 256) (J := 256) (H := 2) (by norm_num) (by norm_num) _ _ _ _ _ _ _ _

theorem out2 (W : Valuation τ sig (Elt F)) :
    after ops2 W (Proc.devRef .tc main_v32) = stage 128 1024 256 4 (W (Proc.devRef .tc main_v21)) := by
  after_results
  exact stage_broadcast_form (B := 128) (N := 1024) (D := 256) (J := 128) (H := 4) (by norm_num) (by norm_num) _ _ _ _ _ _ _ _

theorem out3 (W : Valuation τ sig (Elt F)) :
    after ops3 W (Proc.devRef .tc main_v43) = stage 128 1024 256 8 (W (Proc.devRef .tc main_v32)) := by
  after_results
  exact stage_broadcast_form (B := 128) (N := 1024) (D := 256) (J := 64) (H := 8) (by norm_num) (by norm_num) _ _ _ _ _ _ _ _

theorem out4 (W : Valuation τ sig (Elt F)) :
    after ops4 W (Proc.devRef .tc main_v54) = stage 128 1024 256 16 (W (Proc.devRef .tc main_v43)) := by
  after_results
  exact stage_broadcast_form (B := 128) (N := 1024) (D := 256) (J := 32) (H := 16) (by norm_num) (by norm_num) _ _ _ _ _ _ _ _

theorem out5 (W : Valuation τ sig (Elt F)) :
    after ops5 W (Proc.devRef .tc main_v65) = stage 128 1024 256 32 (W (Proc.devRef .tc main_v54)) := by
  after_results
  exact stage_broadcast_form (B := 128) (N := 1024) (D := 256) (J := 16) (H := 32) (by norm_num) (by norm_num) _ _ _ _ _ _ _ _

theorem out6 (W : Valuation τ sig (Elt F)) :
    after ops6 W (Proc.devRef .tc main_v76) = stage 128 1024 256 64 (W (Proc.devRef .tc main_v65)) := by
  after_results
  exact stage_broadcast_form (B := 128) (N := 1024) (D := 256) (J := 8) (H := 64) (by norm_num) (by norm_num) _ _ _ _ _ _ _ _

theorem out7 (W : Valuation τ sig (Elt F)) :
    after ops7 W (Proc.devRef .tc main_v87) = stage 128 1024 256 128 (W (Proc.devRef .tc main_v76)) := by
  after_results
  exact stage_broadcast_form (B := 128) (N := 1024) (D := 256) (J := 4) (H := 128) (by norm_num) (by norm_num) _ _ _ _ _ _ _ _

theorem out8 (W : Valuation τ sig (Elt F)) :
    after ops8 W (Proc.devRef .tc main_v98) = stage 128 1024 256 256 (W (Proc.devRef .tc main_v87)) := by
  after_results
  exact stage_broadcast_form (B := 128) (N := 1024) (D := 256) (J := 2) (H := 256) (by norm_num) (by norm_num) _ _ _ _ _ _ _ _

theorem out9 (W : Valuation τ sig (Elt F)) :
    after ops9 W (Proc.devRef .tc main_v109) = stage 128 1024 256 512 (W (Proc.devRef .tc main_v98)) := by
  after_results
  exact stage_broadcast_form (B := 128) (N := 1024) (D := 256) (J := 1) (H := 512) (by norm_num) (by norm_num) _ _ _ _ _ _ _ _

/-! No stage writes the argument buffer. -/

theorem kept0 (W : Valuation τ sig (Elt F)) : after ops0 W (Proc.devRef .tc main_arg0) = W (Proc.devRef .tc main_arg0) := by after_results
theorem kept1 (W : Valuation τ sig (Elt F)) : after ops1 W (Proc.devRef .tc main_arg0) = W (Proc.devRef .tc main_arg0) := by after_results
theorem kept2 (W : Valuation τ sig (Elt F)) : after ops2 W (Proc.devRef .tc main_arg0) = W (Proc.devRef .tc main_arg0) := by after_results
theorem kept3 (W : Valuation τ sig (Elt F)) : after ops3 W (Proc.devRef .tc main_arg0) = W (Proc.devRef .tc main_arg0) := by after_results
theorem kept4 (W : Valuation τ sig (Elt F)) : after ops4 W (Proc.devRef .tc main_arg0) = W (Proc.devRef .tc main_arg0) := by after_results
theorem kept5 (W : Valuation τ sig (Elt F)) : after ops5 W (Proc.devRef .tc main_arg0) = W (Proc.devRef .tc main_arg0) := by after_results
theorem kept6 (W : Valuation τ sig (Elt F)) : after ops6 W (Proc.devRef .tc main_arg0) = W (Proc.devRef .tc main_arg0) := by after_results
theorem kept7 (W : Valuation τ sig (Elt F)) : after ops7 W (Proc.devRef .tc main_arg0) = W (Proc.devRef .tc main_arg0) := by after_results
theorem kept8 (W : Valuation τ sig (Elt F)) : after ops8 W (Proc.devRef .tc main_arg0) = W (Proc.devRef .tc main_arg0) := by after_results
theorem kept9 (W : Valuation τ sig (Elt F)) : after ops9 W (Proc.devRef .tc main_arg0) = W (Proc.devRef .tc main_arg0) := by after_results

/-! ## The whole line -/

/-- @main's 110 operations: the ten stages in a row. -/
abbrev allOps : List (HloOp τ sig (Elt F)) :=
  ops0 ++ (ops1 ++ (ops2 ++ (ops3 ++ (ops4 ++ (ops5 ++ (ops6 ++ (ops7 ++ (ops8 ++ ops9))))))))

/-- After the whole line the result buffer holds the transform of the argument. -/
theorem result_eq (V : Valuation τ sig (Elt F)) :
    after allOps V (Proc.devRef .tc main_v109) = fwht 128 (V (Proc.devRef .tc main_arg0)) := by
  simp only [allOps, StableHlo.after_append]
  rw [out9, out8, out7, out6, out5, out4, out3, out2, out1, out0]
  rfl

/-- And the argument buffer is as it was. -/
theorem arg_kept (V : Valuation τ sig (Elt F)) :
    after allOps V (Proc.devRef .tc main_arg0) = V (Proc.devRef .tc main_arg0) := by
  simp only [allOps, StableHlo.after_append]
  rw [kept9, kept8, kept7, kept6, kept5, kept4, kept3, kept2, kept1, kept0]

end Cert.ReferenceIdeal.RefValue

end
-- ==== Proof.RefRun.lean ====
/-
  The reference's run: every weakly fair execution of its @main terminates with the result buffer at the transform of
  the argument array and the argument unchanged.

  @main is the straight line of its 110 operations (the ten stages' lists in a row); the library's run of a straight
  line leaves every buffer at the fold of the operations' results over the launch contents, and RefValue.lean reads
  that fold at the result buffer and at the argument.
-/
import proofs.«113838_j901943132182_1_alg».proof.Proof.RefValue

noncomputable section

namespace Cert.ReferenceIdeal.RefRun

open Cert.ReferenceIdeal Cert.ReferenceIdeal.Gen Cert.ReferenceIdeal.RefOps Cert.ReferenceIdeal.RefValue
open Idealize.ShloMosaic Idealize.ShloMosaic.TcCoe Idealize.SL.Sem Idealize.ShloMosaic.StableHlo Cert.Butterfly

variable {F : FTy → Type} [FloatOps F]

/-! @main is its operations run in order: window by window as the program is printed (its first 60 statements, then the
    other 50; the cut falls inside stage 5), then joined. -/

/-- The first printed window: stages 0 to 4 and the first five operations of stage 5. -/
abbrev firstWindow : List (HloOp τ sig (Elt F)) := ops0 ++ (ops1 ++ (ops2 ++ (ops3 ++ (ops4 ++ ops5.take 5))))
/-- The second: the other six operations of stage 5 and stages 6 to 9. -/
abbrev secondWindow : List (HloOp τ sig (Elt F)) := ops5.drop 5 ++ (ops6 ++ (ops7 ++ (ops8 ++ ops9)))

set_option maxHeartbeats 2000000 in
theorem first_eq (d : Dev nD) : main_part0 (F := F) d = seq firstWindow := rfl
set_option maxHeartbeats 2000000 in
theorem second_eq (d : Dev nD) : main_part1 (F := F) d = seq secondWindow := rfl

theorem windows_eq : (allOps : List (HloOp τ sig (Elt F))) = firstWindow ++ secondWindow := rfl

theorem main_eq (d : Dev nD) : main (F := F) d = seq allOps := by
  rw [windows_eq, seq_append, ← first_eq d, ← second_eq d]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only, stage by stage. -/

theorem sub0 : (ops0 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub1 : (ops1 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub2 : (ops2 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub3 : (ops3 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub4 : (ops4 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub5 : (ops5 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub6 : (ops6 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub7 : (ops7 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub8 : (ops8 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩
theorem sub9 : (ops9 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub ..,
    unary_bufs_sub .., unary_bufs_sub .., binary_bufs_sub .., reshape_bufs_sub ..⟩

theorem ops_sub : (allOps : List (HloOp τ sig (Elt F))).Forall fun op => op.bufs ⊆ tcRefs τ sig :=
  List.forall_append.mpr ⟨sub0, List.forall_append.mpr ⟨sub1, List.forall_append.mpr ⟨sub2, List.forall_append.mpr ⟨sub3,
    List.forall_append.mpr ⟨sub4, List.forall_append.mpr ⟨sub5, List.forall_append.mpr ⟨sub6, List.forall_append.mpr ⟨sub7,
    List.forall_append.mpr ⟨sub8, sub9⟩⟩⟩⟩⟩⟩⟩⟩⟩

/-! Every operation determines its results (none only allocates), stage by stage. -/

theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h
theorem fresh3 : ∀ op ∈ (ops3 : List (HloOp τ sig (Elt F))), op.fresh = ∅ := by
  intro _ h; (repeat (cases h with | head => rfl | tail _ h => ?_)); exact nomatch h
theorem fresh4 : ∀ op ∈ (ops4 : List (HloOp τ sig (Elt F))), op.fresh = ∅ := by
  intro _ h; (repeat (cases h with | head => rfl | tail _ h => ?_)); exact nomatch h
theorem fresh5 : ∀ op ∈ (ops5 : List (HloOp τ sig (Elt F))), op.fresh = ∅ := by
  intro _ h; (repeat (cases h with | head => rfl | tail _ h => ?_)); exact nomatch h
theorem fresh6 : ∀ op ∈ (ops6 : List (HloOp τ sig (Elt F))), op.fresh = ∅ := by
  intro _ h; (repeat (cases h with | head => rfl | tail _ h => ?_)); exact nomatch h
theorem fresh7 : ∀ op ∈ (ops7 : List (HloOp τ sig (Elt F))), op.fresh = ∅ := by
  intro _ h; (repeat (cases h with | head => rfl | tail _ h => ?_)); exact nomatch h
theorem fresh8 : ∀ op ∈ (ops8 : List (HloOp τ sig (Elt F))), op.fresh = ∅ := by
  intro _ h; (repeat (cases h with | head => rfl | tail _ h => ?_)); exact nomatch h
theorem fresh9 : ∀ op ∈ (ops9 : List (HloOp τ sig (Elt F))), op.fresh = ∅ := by
  intro _ h; (repeat (cases h with | head => rfl | tail _ h => ?_)); exact nomatch h

theorem ops_fresh : ∀ op ∈ (allOps : List (HloOp τ sig (Elt F))), op.fresh = ∅ :=
  List.forall_mem_append.mpr ⟨fresh0, List.forall_mem_append.mpr ⟨fresh1, List.forall_mem_append.mpr ⟨fresh2,
    List.forall_mem_append.mpr ⟨fresh3, List.forall_mem_append.mpr ⟨fresh4, List.forall_mem_append.mpr ⟨fresh5,
    List.forall_mem_append.mpr ⟨fresh6, List.forall_mem_append.mpr ⟨fresh7, List.forall_mem_append.mpr ⟨fresh8, fresh9⟩⟩⟩⟩⟩⟩⟩⟩⟩

/-- On every device, from any memory with zero counters: every weakly fair execution of @main terminates with the result
    buffer at the transform of the argument array, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109) = fwht 128 (m ((c.tc : Thread nD τ).loc main_arg0))
      ∧ r.2.mem ((c.tc : Thread nD τ).loc main_arg0) = m ((c.tc : Thread nD τ).loc main_arg0) :=
  (θ_run defs _ _).mono (fun _ h c => ⟨(h c main_v109).trans (result_eq _), (h c main_arg0).trans (arg_kept _)⟩)
    (run_seq scopedRefs_eq scopedSems_eq defs main (fun _ => allOps) main_eq (fun _ => ops_sub) m ρ (fun _ => ops_fresh))

end Cert.ReferenceIdeal.RefRun

end
-- ==== Proof.lean ====
/-
  The kernel and the reference compute the same unnormalised Walsh–Hadamard transform along the middle axis of a
  [128, 1024, 256] array, by the same recursion: ten butterfly stages of half-width H = 1, 2, …, 512, each sending the rows
  (n, n + H) of a group of 2·H rows to (x[n] + x[n + H], x[n] − x[n + H]).

  Both programs spell a stage as reshape, two slices, add / subtract, a concatenation and a reshape; Butterfly.lean reads
  that spelling as the index-by-index butterfly `stage` and names the ten-stage composition `fwht`.  The reference applies
  the stages to the whole array (RefValue.lean, RefRun.lean); the kernel applies them to blocks of four leading rows, one per
  grid point (KernelBody.lean), and since a stage acts on each (b, ·, d) line by itself, the blocks of the transform are the
  transforms of the blocks, and the 32 blocks tile the result (BlockValue.lean).  So both result arrays are `fwht 128` of
  the argument, with the same extended-real additions and subtractions in the same order: no law of arithmetic is used, and
  the finiteness of the input is not needed.  The idealization rewrote no operation, so what it preserves is trivial.
-/
import proofs.«113838_j901943132182_1_alg».proof.Defs
import proofs.«113838_j901943132182_1_alg».proof.Proof.Gen.Kernel
import proofs.«113838_j901943132182_1_alg».proof.Proof.Gen.Kernel.Frame
import proofs.«113838_j901943132182_1_alg».proof.Proof.Gen.KernelIdeal
import proofs.«113838_j901943132182_1_alg».proof.Proof.Gen.KernelIdeal.Frame
import proofs.«113838_j901943132182_1_alg».proof.Proof.Gen.ReferenceIdeal
import proofs.«113838_j901943132182_1_alg».proof.Proof.Gen.Pre_finite_inputs
import proofs.«113838_j901943132182_1_alg».proof.Proof.BlockValue
import proofs.«113838_j901943132182_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its argument as it was: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories that agree on the argument, both programs end with the result at the transform of that argument. -/
theorem algebraic : Cert.algebraic_KernelIdeal_ReferenceIdeal := by
  intro m ρ m' ρ' _ hagree
  refine ⟨_, Cert.KernelIdeal.BlockValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
